-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S16384x5x1 : S_.BroadcastsInDim S16384x5x1 (![] : Fin 0 → Fin S16384x5x1.rank)
  reducesTo_S16384x5x1_S_d0_1_2 : S16384x5x1.ReducesTo [0, 1, 2] S_
  bcast_S_S16384x5x5 : S_.BroadcastsInDim S16384x5x5 (![] : Fin 0 → Fin S16384x5x5.rank)
  reducesTo_S16384x5x5_S_d0_1_2 : S16384x5x5.ReducesTo [0, 1, 2] S_
  bcast_S_S16384x1x5 : S_.BroadcastsInDim S16384x1x5 (![] : Fin 0 → Fin S16384x1x5.rank)
  reducesTo_S16384x1x5_S_d0_1_2 : S16384x1x5.ReducesTo [0, 1, 2] S_
  bcast_S_S16384x1x1 : S_.BroadcastsInDim S16384x1x1 (![] : Fin 0 → Fin S16384x1x1.rank)
  reducesTo_S16384x1x1_S_d0_1_2 : S16384x1x1.ReducesTo [0, 1, 2] S_

variable [Facts]

def fn_part1 {F : FTy → Type} [FloatOps F] (main_arg4 : FVec F S16384x5x1 .f32) (main_arg5 : FVec F S16384x1x5 .f32) (main_arg6 : FVec F S16384x1x1 .f32) (main_v13 : IVec S_ 1) (main_v16 : IVec S16384x5x5 1) : IVec S_ 1 :=
  let main_c_5 : IVec S_ 1 := constantI S_ 1 1#1
  let main_v17 : IVec S_ 1 := (fun x v => Host.reduce IntOp.andi x v reducesTo_S16384x5x5_S_d0_1_2 h_S_) main_v16 main_c_5
  let main_v18 : IVec S_ 1 := andi main_v13 main_v17
  let main_v19 : FVec F S16384x5x1 .f32 := Host.absf main_arg4
  let main_cst_6 : FVec F S_ .f32 := constant S_ .f32 0x7F800000#32
  let main_v20 : FVec F S16384x5x1 .f32 := broadcastInDim S16384x5x1 ![] bcast_S_S16384x5x1 main_cst_6
  let main_v21 : IVec S16384x5x1 1 := cmpf .olt main_v19 main_v20
  let main_c_7 : IVec S_ 1 := constantI S_ 1 1#1
  let main_v22 : IVec S_ 1 := (fun x v => Host.reduce IntOp.andi x v reducesTo_S16384x5x1_S_d0_1_2 h_S_) main_v21 main_c_7
  let main_v23 : IVec S_ 1 := andi main_v18 main_v22
  let main_v24 : FVec F S16384x1x5 .f32 := Host.absf main_arg5
  let main_cst_8 : FVec F S_ .f32 := constant S_ .f32 0x7F800000#32
  let main_v25 : FVec F S16384x1x5 .f32 := broadcastInDim S16384x1x5 ![] bcast_S_S16384x1x5 main_cst_8
  let main_v26 : IVec S16384x1x5 1 := cmpf .olt main_v24 main_v25
  let main_c_9 : IVec S_ 1 := constantI S_ 1 1#1
  let main_v27 : IVec S_ 1 := (fun x v => Host.reduce IntOp.andi x v reducesTo_S16384x1x5_S_d0_1_2 h_S_) main_v26 main_c_9
  let main_v28 : IVec S_ 1 := andi main_v23 main_v27
  let main_v29 : FVec F S16384x1x1 .f32 := Host.absf main_arg6
  let main_cst_10 : FVec F S_ .f32 := constant S_ .f32 0x7F800000#32
  let main_v30 : FVec F S16384x1x1 .f32 := broadcastInDim S16384x1x1 ![] bcast_S_S16384x1x1 main_cst_10
  let main_v31 : IVec S16384x1x1 1 := cmpf .olt main_v29 main_v30
  let main_c_11 : IVec S_ 1 := constantI S_ 1 1#1
  let main_v32 : IVec S_ 1 := (fun x v => Host.reduce IntOp.andi x v reducesTo_S16384x1x1_S_d0_1_2 h_S_) main_v31 main_c_11
  let main_v33 : IVec S_ 1 := andi main_v28 main_v32
  main_v33

def fn {F : FTy → Type} [FloatOps F] (main_arg0 : FVec F S2048x128 .f32) (main_arg1 : FVec F S16384x5x1 .f32) (main_arg2 : FVec F S16384x5x1 .f32) (main_arg3 : FVec F S16384x5x5 .f32) (main_arg4 : FVec F S16384x5x1 .f32) (main_arg5 : FVec F S16384x1x5 .f32) (main_arg6 : FVec F S16384x1x1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S16384x5x1 .f32 := Host.absf main_arg1
  let main_cst_0 : FVec F S_ .f32 := constant S_ .f32 0x7F800000#32
  let main_v5 : FVec F S16384x5x1 .f32 := broadcastInDim S16384x5x1 ![] bcast_S_S16384x5x1 main_cst_0
  let main_v6 : IVec S16384x5x1 1 := cmpf .olt main_v4 main_v5
  let main_c_1 : IVec S_ 1 := constantI S_ 1 1#1
  let main_v7 : IVec S_ 1 := (fun x v => Host.reduce IntOp.andi x v reducesTo_S16384x5x1_S_d0_1_2 h_S_) main_v6 main_c_1
  let main_v8 : IVec S_ 1 := andi main_v3 main_v7
  let main_v9 : FVec F S16384x5x1 .f32 := Host.absf main_arg2
  let main_cst_2 : FVec F S_ .f32 := constant S_ .f32 0x7F800000#32
  let main_v10 : FVec F S16384x5x1 .f32 := broadcastInDim S16384x5x1 ![] bcast_S_S16384x5x1 main_cst_2
  let main_v11 : IVec S16384x5x1 1 := cmpf .olt main_v9 main_v10
  let main_c_3 : IVec S_ 1 := constantI S_ 1 1#1
  let main_v12 : IVec S_ 1 := (fun x v => Host.reduce IntOp.andi x v reducesTo_S16384x5x1_S_d0_1_2 h_S_) main_v11 main_c_3
  let main_v13 : IVec S_ 1 := andi main_v8 main_v12
  let main_v14 : FVec F S16384x5x5 .f32 := Host.absf main_arg3
  let main_cst_4 : FVec F S_ .f32 := constant S_ .f32 0x7F800000#32
  let main_v15 : FVec F S16384x5x5 .f32 := broadcastInDim S16384x5x5 ![] bcast_S_S16384x5x5 main_cst_4
  let main_v16 : IVec S16384x5x5 1 := cmpf .olt main_v14 main_v15
  fn_part1 (F := F) main_arg4 main_arg5 main_arg6 main_v13 main_v16
-- ==== Kernel.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x2048 : Shape := ⟨2, ![128, 2048]⟩
abbrev S128x1x2048 : Shape := ⟨3, ![128, 1, 2048]⟩
abbrev S16384x5 : Shape := ⟨2, ![16384, 5]⟩
abbrev S128x128x5 : Shape := ⟨3, ![128, 128, 5]⟩
abbrev S128x5x128 : Shape := ⟨3, ![128, 5, 128]⟩
abbrev S128x128x5x5 : Shape := ⟨4, ![128, 128, 5, 5]⟩
abbrev S128x5x5x128 : Shape := ⟨4, ![128, 5, 5, 128]⟩
abbrev S16384 : Shape := ⟨1, ![16384]⟩
abbrev S128x128 : Shape := ⟨2, ![128, 128]⟩
abbrev S128x1x128 : Shape := ⟨3, ![128, 1, 128]⟩
abbrev S1x1x1024 : Shape := ⟨3, ![1, 1, 1024]⟩
abbrev S1x5x128 : Shape := ⟨3, ![1, 5, 128]⟩
abbrev S1x5x5x128 : Shape := ⟨4, ![1, 5, 5, 128]⟩
abbrev S1x1x128 : Shape := ⟨3, ![1, 1, 128]⟩
abbrev S1024x128 : Shape := ⟨2, ![1024, 128]⟩
abbrev S1024 : Shape := ⟨1, ![1024]⟩
abbrev S1024x1 : Shape := ⟨2, ![1024, 1]⟩
abbrev S5x128 : Shape := ⟨2, ![5, 128]⟩
abbrev S5x5x128 : Shape := ⟨3, ![5, 5, 128]⟩
abbrev S128 : Shape := ⟨1, ![128]⟩
abbrev S1x128 : Shape := ⟨2, ![1, 128]⟩

abbrev nBuf : Space → Nat
  | .hbm => 27
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x1, .f32⟩
  | .hbm, ⟨3, _⟩ => ⟨S16384x5x5, .f32⟩
  | .hbm, ⟨4, _⟩ => ⟨S16384x5x1, .f32⟩
  | .hbm, ⟨5, _⟩ => ⟨S16384x1x5, .f32⟩
  | .hbm, ⟨6, _⟩ => ⟨S16384x1x1, .f32⟩
  | .hbm, ⟨7, _⟩ => ⟨S128x2048, .f32⟩
  | .hbm, ⟨8, _⟩ => ⟨S128x1x2048, .f32⟩
  | .hbm, ⟨9, _⟩ => ⟨S16384x5, .f32⟩
  | .hbm, ⟨10, _⟩ => ⟨S128x128x5, .f32⟩
  | .hbm, ⟨11, _⟩ => ⟨S128x5x128, .f32⟩
  | .hbm, ⟨12, _⟩ => ⟨S16384x5, .f32⟩
  | .hbm, ⟨13, _⟩ => ⟨S128x128x5, .f32⟩
  | .hbm, ⟨14, _⟩ => ⟨S128x5x128, .f32⟩
  | .hbm, ⟨15, _⟩ => ⟨S128x128x5x5, .f32⟩
  | .hbm, ⟨16, _⟩ => ⟨S128x5x5x128, .f32⟩
  | .hbm, ⟨17, _⟩ => ⟨S16384x5, .f32⟩
  | .hbm, ⟨18, _⟩ => ⟨S128x128x5, .f32⟩
  | .hbm, ⟨19, _⟩ => ⟨S128x5x128, .f32⟩
  | .hbm, ⟨20, _⟩ => ⟨S16384x5, .f32⟩
  | .hbm, ⟨21, _⟩ => ⟨S128x128x5, .f32⟩
  | .hbm, ⟨22, _⟩ => ⟨S128x5x128, .f32⟩
  | .hbm, ⟨23, _⟩ => ⟨S16384, .f32⟩
  | .hbm, ⟨24, _⟩ => ⟨S128x128, .f32⟩
  | .hbm, ⟨25, _⟩ => ⟨S128x1x128, .f32⟩
  | .hbm, ⟨26, _⟩ => ⟨S2048x128, .f32⟩
  | .local _ .vmem, ⟨0, _⟩ => ⟨S1x1x1024, .f32⟩
  | .local _ .vmem, ⟨1, _⟩ => ⟨S1x1x1024, .f32⟩
  | .local _ .vmem, ⟨2, _⟩ => ⟨S1x5x128, .f32⟩
  | .local _ .vmem, ⟨3, _⟩ => ⟨S1x5x128, .f32⟩
  | .local _ .vmem, ⟨4, _⟩ => ⟨S1x5x5x128, .f32⟩
  | .local _ .vmem, ⟨5, _⟩ => ⟨S1x5x5x128, .f32⟩
  | .local _ .vmem, ⟨6, _⟩ => ⟨S1x5x128, .f32⟩
  | .local _ .vmem, ⟨7, _⟩ => ⟨S1x5x128, .f32⟩
  | .local _ .vmem, ⟨8, _⟩ => ⟨S1x5x128, .f32⟩
  | .local _ .vmem, ⟨9, _⟩ => ⟨S1x5x128, .f32⟩
  | .local _ .vmem, ⟨10, _⟩ => ⟨S1x5x128, .f32⟩
  | .local _ .vmem, ⟨11, _⟩ => ⟨S1x5x128, .f32⟩
  | .local _ .vmem, ⟨12, _⟩ => ⟨S1x1x128, .f32⟩
  | .local _ .vmem, ⟨13, _⟩ => ⟨S1x1x128, .f32⟩
  | .local _ .vmem, ⟨14, _⟩ => ⟨S1024x128, .f32⟩
  | .local _ .vmem, ⟨15, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5x5x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x5x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x5x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x5x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S2048x128_S128x2048_1_0 : S2048x128.Transposes [1, 0] S128x2048
  shapeCasts_S128x2048_S128x1x2048 : S128x2048.ShapeCasts S128x1x2048
  shapeCasts_S16384x5x1_S16384x5 : S16384x5x1.ShapeCasts S16384x5
  shapeCasts_S16384x5_S128x128x5 : S16384x5.ShapeCasts S128x128x5
  transposes_S128x128x5_S128x5x128_0_2_1 : S128x128x5.Transposes [0, 2, 1] S128x5x128
  shapeCasts_S16384x1x5_S16384x5 : S16384x1x5.ShapeCasts S16384x5
  shapeCasts_S16384x5x5_S128x128x5x5 : S16384x5x5.ShapeCasts S128x128x5x5
  transposes_S128x128x5x5_S128x5x5x128_0_2_3_1 : S128x128x5x5.Transposes [0, 2, 3, 1] S128x5x5x128
  shapeCasts_S16384x1x1_S16384 : S16384x1x1.ShapeCasts S16384
  shapeCasts_S16384_S128x128 : S16384.ShapeCasts S128x128
  bcast_S128x128_S128x1x128_0_2 : S128x128.BroadcastsInDim S128x1x128 (![0, 2] : Fin 2 → Fin S128x1x128.rank)
  inb_S1024x128_S1024x128_0_0 : ∀ a, (![0, 0] : Fin 2 → Nat) a + S1024x128.size a ≤ S1024x128.size a
  h_S1024x128 : 0 < S1024x128.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1024x1 : S1024.ShapeCasts S1024x1
  inb_S1x5x128_S1x5x128_0_0_0 : ∀ a, (![0, 0, 0] : Fin 3 → Nat) a + S1x5x128.size a ≤ S1x5x128.size a
  h_S1x5x128 : 0 < S1x5x128.numel
  shapeCasts_S1x5x128_S5x128 : S1x5x128.ShapeCasts S5x128
  inb_S1x5x5x128_S1x5x5x128_0_0_0_0 : ∀ a, (![0, 0, 0, 0] : Fin 4 → Nat) a + S1x5x5x128.size a ≤ S1x5x5x128.size a
  h_S1x5x5x128 : 0 < S1x5x5x128.numel
  shapeCasts_S1x5x5x128_S5x5x128 : S1x5x5x128.ShapeCasts S5x5x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  slices_S5x128_o0_0_S1x128 : S5x128.Slices ![0, 0] S1x128
  shapeCasts_S1x128_S128 : S1x128.ShapeCasts S128
  shapeCasts_S128_S1x128 : S128.ShapeCasts S1x128
  broadcasts_S1024x1_S1024x128 : S1024x1.Broadcasts S1024x128
  broadcasts_S1x128_S1024x128 : S1x128.Broadcasts S1024x128
  slices_S5x128_o1_0_S1x128 : S5x128.Slices ![1, 0] S1x128
  slices_S5x128_o2_0_S1x128 : S5x128.Slices ![2, 0] S1x128
  slices_S5x128_o3_0_S1x128 : S5x128.Slices ![3, 0] S1x128
  slices_S5x128_o4_0_S1x128 : S5x128.Slices ![4, 0] S1x128
  shapeCasts_S1x128_S1x128 : S1x128.ShapeCasts S1x128
  slices_S5x5x128_o0_0_0_S1x1x128 : S5x5x128.Slices ![0, 0, 0] S1x1x128
  slices_S5x5x128_o0_1_0_S1x1x128 : S5x5x128.Slices ![0, 1, 0] S1x1x128
  slices_S5x5x128_o0_2_0_S1x1x128 : S5x5x128.Slices ![0, 2, 0] S1x1x128
  slices_S5x5x128_o0_3_0_S1x1x128 : S5x5x128.Slices ![0, 3, 0] S1x1x128
  slices_S5x5x128_o0_4_0_S1x1x128 : S5x5x128.Slices ![0, 4, 0] S1x1x128
  slices_S5x5x128_o1_0_0_S1x1x128 : S5x5x128.Slices ![1, 0, 0] S1x1x128
  slices_S5x5x128_o1_1_0_S1x1x128 : S5x5x128.Slices ![1, 1, 0] S1x1x128
  slices_S5x5x128_o1_2_0_S1x1x128 : S5x5x128.Slices ![1, 2, 0] S1x1x128
  slices_S5x5x128_o1_3_0_S1x1x128 : S5x5x128.Slices ![1, 3, 0] S1x1x128
  slices_S5x5x128_o1_4_0_S1x1x128 : S5x5x128.Slices ![1, 4, 0] S1x1x128
  slices_S5x5x128_o2_0_0_S1x1x128 : S5x5x128.Slices ![2, 0, 0] S1x1x128
  slices_S5x5x128_o2_1_0_S1x1x128 : S5x5x128.Slices ![2, 1, 0] S1x1x128
  slices_S5x5x128_o2_2_0_S1x1x128 : S5x5x128.Slices ![2, 2, 0] S1x1x128
  slices_S5x5x128_o2_3_0_S1x1x128 : S5x5x128.Slices ![2, 3, 0] S1x1x128
  slices_S5x5x128_o2_4_0_S1x1x128 : S5x5x128.Slices ![2, 4, 0] S1x1x128
  slices_S5x5x128_o3_0_0_S1x1x128 : S5x5x128.Slices ![3, 0, 0] S1x1x128
  slices_S5x5x128_o3_1_0_S1x1x128 : S5x5x128.Slices ![3, 1, 0] S1x1x128
  slices_S5x5x128_o3_2_0_S1x1x128 : S5x5x128.Slices ![3, 2, 0] S1x1x128
  slices_S5x5x128_o3_3_0_S1x1x128 : S5x5x128.Slices ![3, 3, 0] S1x1x128
  slices_S5x5x128_o3_4_0_S1x1x128 : S5x5x128.Slices ![3, 4, 0] S1x1x128
  slices_S5x5x128_o4_0_0_S1x1x128 : S5x5x128.Slices ![4, 0, 0] S1x1x128
  slices_S5x5x128_o4_1_0_S1x1x128 : S5x5x128.Slices ![4, 1, 0] S1x1x128
  slices_S5x5x128_o4_2_0_S1x1x128 : S5x5x128.Slices ![4, 2, 0] S1x1x128
  slices_S5x5x128_o4_3_0_S1x1x128 : S5x5x128.Slices ![4, 3, 0] S1x1x128
  slices_S5x5x128_o4_4_0_S1x1x128 : S5x5x128.Slices ![4, 4, 0] S1x1x128
  shapeCasts_S1024x128_S1024x128 : S1024x128.ShapeCasts S1024x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S128x1x2048.size a
  hwx0_0 : ∀ i : grid0.Coords, EltTy.bits .f32 = 32 ∨ (Rect.block (s := S128x1x2048) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x128.size a ≤ S128x5x128.size a
  hwx0_1 : ∀ i : grid0.Coords, EltTy.bits .f32 = 32 ∨ (Rect.block (s := S128x5x128) S1x5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x5x128.size a ≤ S128x5x5x128.size a
  hwx0_2 : ∀ i : grid0.Coords, EltTy.bits .f32 = 32 ∨ (Rect.block (s := S128x5x5x128) S1x5x5x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x128.size a ≤ S128x5x128.size a
  hwx0_3 : ∀ i : grid0.Coords, EltTy.bits .f32 = 32 ∨ (Rect.block (s := S128x5x128) S1x5x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x128.size a ≤ S128x5x128.size a
  hwx0_4 : ∀ i : grid0.Coords, EltTy.bits .f32 = 32 ∨ (Rect.block (s := S128x5x128) S1x5x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5x128.size a ≤ S128x5x128.size a
  hwx0_5 : ∀ i : grid0.Coords, EltTy.bits .f32 = 32 ∨ (Rect.block (s := S128x5x128) S1x5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S128x1x128.size a
  hwx0_6 : ∀ i : grid0.Coords, EltTy.bits .f32 = 32 ∨ (Rect.block (s := S128x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S2048x128.size a
  hwx0_7 : ∀ i : grid0.Coords, EltTy.bits .f32 = 32 ∨ (Rect.block (s := S2048x128) S1024x128.size (cc0_transform_7 i) (hinb0_7 i)).WholeWords (EltTy.packing .f32)

variable [Facts₀]

abbrev win0_0 : Pipeline.Window sig grid0 :=
  Pipeline.Window.ofSpec (Memref.whole main_v1) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x5x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x5x5x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x5x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x5x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x5x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x2048 : Shape := ⟨2, ![128, 2048]⟩
abbrev S128x128x2048 : Shape := ⟨3, ![128, 128, 2048]⟩
abbrev S16384x2048 : Shape := ⟨2, ![16384, 2048]⟩
abbrev S16384x1x2048 : Shape := ⟨3, ![16384, 1, 2048]⟩
abbrev S16384x5x2048 : Shape := ⟨3, ![16384, 5, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x1, .f32⟩
  | .hbm, ⟨3, _⟩ => ⟨S16384x5x5, .f32⟩
  | .hbm, ⟨4, _⟩ => ⟨S16384x5x1, .f32⟩
  | .hbm, ⟨5, _⟩ => ⟨S16384x1x5, .f32⟩
  | .hbm, ⟨6, _⟩ => ⟨S16384x1x1, .f32⟩
  | .hbm, ⟨7, _⟩ => ⟨S128x2048, .f32⟩
  | .hbm, ⟨8, _⟩ => ⟨S128x128x2048, .f32⟩
  | .hbm, ⟨9, _⟩ => ⟨S16384x2048, .f32⟩
  | .hbm, ⟨10, _⟩ => ⟨S16384x1x2048, .f32⟩
  | .hbm, ⟨11, _⟩ => ⟨S16384x5x2048, .f32⟩
  | .hbm, ⟨12, _⟩ => ⟨S16384x5x2048, .f32⟩
  | .hbm, ⟨13, _⟩ => ⟨S16384x5x2048, .f32⟩
  | .hbm, ⟨14, _⟩ => ⟨S16384x5x2048, .f32⟩
  | .hbm, ⟨15, _⟩ => ⟨S16384x5x2048, .f32⟩
  | .hbm, ⟨16, _⟩ => ⟨S_, .f32⟩
  | .hbm, ⟨17, _⟩ => ⟨S16384x5x2048, .f32⟩
  | .hbm, ⟨18, _⟩ => ⟨S16384x5x2048, .f32⟩
  | .hbm, ⟨19, _⟩ => ⟨S_, .f32⟩
  | .hbm, ⟨20, _⟩ => ⟨S16384x5x2048, .f32⟩
  | .hbm, ⟨21, _⟩ => ⟨S16384x5x2048, .f32⟩
  | .hbm, ⟨22, _⟩ => ⟨S16384x5x2048, .f32⟩
  | .hbm, ⟨23, _⟩ => ⟨S16384x5x2048, .f32⟩
  | .hbm, ⟨24, _⟩ => ⟨S16384x5x2048, .f32⟩
  | .hbm, ⟨25, _⟩ => ⟨S16384x5x2048, .f32⟩
  | .hbm, ⟨26, _⟩ => ⟨S16384x5x2048, .f32⟩
  | .hbm, ⟨27, _⟩ => ⟨S16384x5x2048, .f32⟩
  | .hbm, ⟨28, _⟩ => ⟨S_, .f32⟩
  | .hbm, ⟨29, _⟩ => ⟨S16384x5x2048, .f32⟩
  | .hbm, ⟨30, _⟩ => ⟨S16384x5x2048, .f32⟩
  | .hbm, ⟨31, _⟩ => ⟨S_, .f32⟩
  | .hbm, ⟨32, _⟩ => ⟨S16384x5x2048, .f32⟩
  | .hbm, ⟨33, _⟩ => ⟨S16384x5x2048, .f32⟩
  | .hbm, ⟨34, _⟩ => ⟨S16384x5x2048, .f32⟩
  | .hbm, ⟨35, _⟩ => ⟨S16384x1x2048, .f32⟩
  | .hbm, ⟨36, _⟩ => ⟨S16384x1x2048, .f32⟩
  | .hbm, ⟨37, _⟩ => ⟨S16384x1x2048, .f32⟩
  | .hbm, ⟨38, _⟩ => ⟨S128x128x2048, .f32⟩
  | .hbm, ⟨39, _⟩ => ⟨S_, .f32⟩
  | .hbm, ⟨40, _⟩ => ⟨S128x2048, .f32⟩
  | .hbm, ⟨41, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩

abbrev nD : Nat := 1
abbrev τ : Topo := Topo.v7x

variable {F : FTy → Type} [FloatOps F]

class Facts₀ : Prop where
  transposes_S2048x128_S128x2048_1_0 : S2048x128.Transposes [1, 0] S128x2048
  bcast_S128x2048_S128x128x2048_0_2 : S128x2048.BroadcastsInDim S128x128x2048 (![0, 2] : Fin 2 → Fin S128x128x2048.rank)
  shapeCasts_S128x128x2048_S16384x2048 : S128x128x2048.ShapeCasts S16384x2048
  bcast_S16384x2048_S16384x1x2048_0_2 : S16384x2048.BroadcastsInDim S16384x1x2048 (![0, 2] : Fin 2 → Fin S16384x1x2048.rank)
  bcast_S16384x5x1_S16384x5x2048_0_1_2 : S16384x5x1.BroadcastsInDim S16384x5x2048 (![0, 1, 2] : Fin 3 → Fin S16384x5x2048.rank)
  bcast_S_S16384x5x2048 : S_.BroadcastsInDim S16384x5x2048 (![] : Fin 0 → Fin S16384x5x2048.rank)
  bcast_S16384x1x1_S16384x1x2048_0_1_2 : S16384x1x1.BroadcastsInDim S16384x1x2048 (![0, 1, 2] : Fin 3 → Fin S16384x1x2048.rank)
  shapeCasts_S16384x1x2048_S128x128x2048 : S16384x1x2048.ShapeCasts S128x128x2048
  reducesTo_S128x128x2048_S128x2048_d0 : S128x128x2048.ReducesTo [0] S128x2048
  h_S_ : 0 < S_.numel
  transposes_S128x2048_S2048x128_1_0 : S128x2048.Transposes [1, 0] S2048x128
  dot_S16384x5x1_S16384x1x2048_S16384x5x2048_2_1_1_2_0_0_wf : DotDims.WF S16384x5x1 S16384x1x2048 S16384x5x2048 [2] [1] [1] [2] [0] [0]
  dot_S16384x5x5_S16384x5x2048_S16384x5x2048_2_1_1_2_0_0_wf : DotDims.WF S16384x5x5 S16384x5x2048 S16384x5x2048 [2] [1] [1] [2] [0] [0]
  dot_S16384x1x5_S16384x5x2048_S16384x1x2048_2_1_1_2_0_0_wf : DotDims.WF S16384x1x5 S16384x5x2048 S16384x1x2048 [2] [1] [1] [2] [0] [0]

variable [Facts₀]

def dot_S16384x5x1_S16384x1x2048_S16384x5x2048_2_1_1_2_0_0 : DotDims S16384x5x1 S16384x1x2048 S16384x5x2048 where
  lhsContracting := [2]
  rhsContracting := [1]
  lhsNonContracting := [1]
  rhsNonContracting := [2]
  lhsBatch := [0]
  rhsBatch := [0]
  wf := dot_S16384x5x1_S16384x1x2048_S16384x5x2048_2_1_1_2_0_0_wf
def dot_S16384x5x5_S16384x5x2048_S16384x5x2048_2_1_1_2_0_0 : DotDims S16384x5x5 S16384x5x2048 S16384x5x2048 where
  lhsContracting := [2]
  rhsContracting := [1]
  lhsNonContracting := [1]
  rhsNonContracting := [2]
  lhsBatch := [0]
  rhsBatch := [0]
  wf := dot_S16384x5x5_S16384x5x2048_S16384x5x2048_2_1_1_2_0_0_wf
def dot_S16384x1x5_S16384x5x2048_S16384x1x2048_2_1_1_2_0_0 : DotDims S16384x1x5 S16384x5x2048 S16384x1x2048 where
  lhsContracting := [2]
  rhsContracting := [1]
  lhsNonContracting := [1]
  rhsNonContracting := [2]
  lhsBatch := [0]
  rhsBatch := [0]
  wf := dot_S16384x1x5_S16384x5x2048_S16384x1x2048_2_1_1_2_0_0_wf

class Facts : Prop extends Facts₀ where

variable [Facts]
-- ==== Proof.LibLaneReads.lean ====
/-
  A per-lane parameter laid across the rows of a tile. A kernel body that computes on an `[a, b]` tile, rows a batch and
  columns the lanes, takes each scalar weight of lane `c` from a small array whose LAST axis is the lane axis: it cuts
  the unit slab that holds the weight, squeezes the slab to the length-`b` lane vector, gives the vector a unit row axis
  and broadcasts that row down the `a` rows. Read at an entry `(p, c)` every such chain gives the weight of lane `c`,
  whatever the row `p`. Here are the chains for a weight matrix `[n, b]` (row `r`), a weight cube `[n, m, b]` (lane
  vector at `(r, s)`) and a lane vector itself, and the squeeze `[1, 1, a] → [a]`. Any extents, any element type.
-/
import Idealize.ShloMosaic.Lib.Pipeline.Value
import Idealize.ShloMosaic.Lib.ValueIdx
import Idealize.ShloMosaic.Lib.ValueLayout

namespace Cert.LibLaneReads

open Idealize.ShloMosaic Idealize.ShloMosaic.ValueIdx

variable {α : Type}

/-- `[1, 1, a]` squeezed to `[a]` reads, at `i`, the operand at `(0, 0, i)`: both have row-major position `i`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A lane vector given a unit row axis and broadcast down `a` rows reads, at `(p, c)`, the vector at lane `c`. -/
theorem lane_of_vector {a b : ℕ} (v : (⟨1, ![b]⟩ : Shape).Idx → α)
    (h1 : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v h1) hb (ix2 p c) = v (ix1 c) :=
  (broadcastTo_1b_ab_apply _ hb p c).trans (shapeCast_a_1a_apply v h1 0 c)

/-- Row `r` of a weight matrix `[n, b]`, cut as the slab `[1, b]` at offsets `(r, 0)`, reads at `(0, c)` the matrix at `(r, c)`. -/
theorem slab_of_matrix {n b : ℕ} (r : ℕ) (w : (⟨2, ![n, b]⟩ : Shape).Idx → α)
    (hs : (⟨2, ![n, b]⟩ : Shape).Slices ![r, 0] ⟨2, ![1, b]⟩) (k : Fin n) (hk : k.val = r) (u : Fin 1) (c : Fin b) :
    extractStridedSlice ⟨2, ![1, b]⟩ ![r, 0] w hs (ix2 u c) = w (ix2 k c) :=
  extractStridedSlice_apply _ w hs _ _ (fun ax => by
    match ax with
    | ⟨0, _⟩ =>
      have hu : u.val = 0 := by omega
      show k.val = r + u.val
      rw [hk, hu, Nat.add_zero]
    | ⟨1, _⟩ => exact (Nat.zero_add _).symm)

/-- Row `r` of a weight matrix `[n, b]` — slab, squeeze to the lane vector — reads at lane `c` the matrix at `(r, c)`. -/
theorem lanes_of_matrix {n b : ℕ} (r : ℕ) (w : (⟨2, ![n, b]⟩ : Shape).Idx → α)
    (hs : (⟨2, ![n, b]⟩ : Shape).Slices ![r, 0] ⟨2, ![1, b]⟩) (h0 : (⟨2, ![1, b]⟩ : Shape).ShapeCasts ⟨1, ![b]⟩)
    (k : Fin n) (hk : k.val = r) (c : Fin b) :
    shapeCast ⟨1, ![b]⟩ (extractStridedSlice ⟨2, ![1, b]⟩ ![r, 0] w hs) h0 (ix1 c) = w (ix2 k c) :=
  (shapeCast_1a_a_apply _ h0 c).trans (slab_of_matrix r w hs k hk 0 c)

/-- Row `r` of a weight matrix `[n, b]` — slab, squeeze, unit row axis, broadcast down `a` rows — reads, at `(p, c)`, the
    matrix at `(r, c)`. -/
theorem lane_of_matrix {a n b : ℕ} (r : ℕ) (w : (⟨2, ![n, b]⟩ : Shape).Idx → α)
    (hs : (⟨2, ![n, b]⟩ : Shape).Slices ![r, 0] ⟨2, ![1, b]⟩) (h0 : (⟨2, ![1, b]⟩ : Shape).ShapeCasts ⟨1, ![b]⟩)
    (h1 : (⟨1, ![b]⟩ : Shape).ShapeCasts ⟨2, ![1, b]⟩) (hb : (⟨2, ![1, b]⟩ : Shape).Broadcasts ⟨2, ![a, b]⟩)
    (k : Fin n) (hk : k.val = r) (p : Fin a) (c : Fin b) :
    broadcastTo ⟨2, ![a, b]⟩ (shapeCast ⟨2, ![1, b]⟩ (shapeCast ⟨1, ![b]⟩ (extractStridedSlice ⟨2, ![1, b]⟩ ![r, 0] w hs) h0) h1) hb (ix2 p c)
      = w (ix2 k c) :=
  (lane_of_vector _ h1 hb p c).trans (lanes_of_matrix r w hs h0 k hk c)

/-- The lane vector at `(r, s)` of a weight cube `[n, m, b]`, cut as the slab `[1, 1, b]` at offsets `(r, s, 0)` and
    squeezed, reads at lane `c` the cube at `(r, s, c)`. -/
theorem lanes_of_cube {n m b : ℕ} (r s : ℕ) (w : (⟨3, ![n, m, b]⟩ : Shape).Idx → α)
    (hs : (⟨3, ![n, m, b]⟩ : Shape).Slices ![r, s, 0] ⟨3, ![1, 1, b]⟩) (h0 : (⟨3, ![1, 1, b]⟩ : Shape).ShapeCasts ⟨1, ![b]⟩)
    (k : Fin n) (hk : k.val = r) (l : Fin m) (hl : l.val = s) (c : Fin b) :
    shapeCast ⟨1, ![b]⟩ (extractStridedSlice ⟨3, ![1, 1, b]⟩ ![r, s, 0] w hs) h0 (ix1 c) = w (ix3 k l c) :=
  (shapeCast_11a_a_apply _ h0 c).trans (extractStridedSlice_apply _ w hs _ _ (fun ax => by
    match ax with
    | ⟨0, _⟩ => show k.val = r + 0; rw [hk, Nat.add_zero]
    | ⟨1, _⟩ => show l.val = s + 0; rw [hl, Nat.add_zero]
    | ⟨2, _⟩ => exact (Nat.zero_add _).symm))

/-- … and, given a unit row axis and broadcast down `a` rows, reads at `(p, c)` the cube at `(r, s, c)`. -/
theorem lane_of_cube {a n m b : ℕ} (r s : ℕ) (w : (⟨3, ![n, m, b]⟩ : Shape).Idx → α)
    (hs : (⟨3, ![n, m, b]⟩ : Shape).Slices ![r, s, 0] ⟨3, ![1, 1, b]⟩) (h0 : (⟨3, ![1, 1, b]⟩ : Shape).ShapeCasts ⟨1, ![b]⟩)
    (h1 : (⟨1, ![b]⟩ : Shape).ShapeCasts ⟨2, ![1, b]⟩) (hb : (⟨2, ![1, b]⟩ : Shape).Broadcasts ⟨2, ![a, b]⟩)
    (k : Fin n) (hk : k.val = r) (l : Fin m) (hl : l.val = s) (p : Fin a) (c : Fin b) :
    broadcastTo ⟨2, ![a, b]⟩ (shapeCast ⟨2, ![1, b]⟩ (shapeCast ⟨1, ![b]⟩ (extractStridedSlice ⟨3, ![1, 1, b]⟩ ![r, s, 0] w hs) h0) h1) hb (ix2 p c)
      = w (ix3 k l c) :=
  (lane_of_vector _ h1 hb p c).trans (lanes_of_cube r s w hs h0 k hk l hl c)

/-! ## The same reads with the weight's index written out

The forms above take the weight's row as an argument `k` with `k = r`. Below the row is `⟨r, _⟩`, its bound read off the
slab's own range condition, so that the right-hand side is determined by the left and the equation can be used as a
rewrite rule. -/

/-- The slab `[1, b]` at row offset `r` fits in `[n, b]` only if `r < n`. -/
theorem row_lt {n b r : ℕ} (hs : (⟨2, ![n, b]⟩ : Shape).Slices ![r, 0] ⟨2, ![1, b]⟩) : r < n := hs.2 0

theorem cube_row_lt {n m b r s : ℕ} (hs : (⟨3, ![n, m, b]⟩ : Shape).Slices ![r, s, 0] ⟨3, ![1, 1, b]⟩) : r < n := hs.2 0

theorem cube_col_lt {n m b r s : ℕ} (hs : (⟨3, ![n, m, b]⟩ : Shape).Slices ![r, s, 0] ⟨3, ![1, 1, b]⟩) : s < m := hs.2 1

theorem lanes_of_matrix_eq {n b : ℕ} (r : ℕ) (w : (⟨2, ![n, b]⟩ : Shape).Idx → α)
    (hs : (⟨2, ![n, b]⟩ : Shape).Slices ![r, 0] ⟨2, ![1, b]⟩) (h0 : (⟨2, ![1, b]⟩ : Shape).ShapeCasts ⟨1, ![b]⟩) (c : Fin b) :
    shapeCast ⟨1, ![b]⟩ (extractStridedSlice ⟨2, ![1, b]⟩ ![r, 0] w hs) h0 (ix1 c) = w (ix2 ⟨r, row_lt hs⟩ c) :=
  lanes_of_matrix r w hs h0 _ rfl c

theorem lane_of_matrix_eq {a n b : ℕ} (r : ℕ) (w : (⟨2, ![n, b]⟩ : Shape).Idx → α)
    (hs : (⟨2, ![n, b]⟩ : Shape).Slices ![r, 0] ⟨2, ![1, b]⟩) (h0 : (⟨2, ![1, b]⟩ : Shape).ShapeCasts ⟨1, ![b]⟩)
    (h1 : (⟨1, ![b]⟩ : Shape).ShapeCasts ⟨2, ![1, b]⟩) (hb : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![r, 0] w hs) h0) h1) hb (ix2 p c)
      = w (ix2 ⟨r, row_lt hs⟩ c) :=
  lane_of_matrix r w hs h0 h1 hb _ rfl p c

theorem lanes_of_cube_eq {n m b : ℕ} (r s : ℕ) (w : (⟨3, ![n, m, b]⟩ : Shape).Idx → α)
    (hs : (⟨3, ![n, m, b]⟩ : Shape).Slices ![r, s, 0] ⟨3, ![1, 1, b]⟩) (h0 : (⟨3, ![1, 1, b]⟩ : Shape).ShapeCasts ⟨1, ![b]⟩) (c : Fin b) :
    shapeCast ⟨1, ![b]⟩ (extractStridedSlice ⟨3, ![1, 1, b]⟩ ![r, s, 0] w hs) h0 (ix1 c)
      = w (ix3 ⟨r, cube_row_lt hs⟩ ⟨s, cube_col_lt hs⟩ c) :=
  lanes_of_cube r s w hs h0 _ rfl _ rfl c

theorem lane_of_cube_eq {a n m b : ℕ} (r s : ℕ) (w : (⟨3, ![n, m, b]⟩ : Shape).Idx → α)
    (hs : (⟨3, ![n, m, b]⟩ : Shape).Slices ![r, s, 0] ⟨3, ![1, 1, b]⟩) (h0 : (⟨3, ![1, 1, b]⟩ : Shape).ShapeCasts ⟨1, ![b]⟩)
    (h1 : (⟨1, ![b]⟩ : Shape).ShapeCasts ⟨2, ![1, b]⟩) (hb : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨3, ![1, 1, b]⟩ ![r, s, 0] w hs) h0) h1) hb (ix2 p c)
      = w (ix3 ⟨r, cube_row_lt hs⟩ ⟨s, cube_col_lt hs⟩ c) :=
  lane_of_cube r s w hs h0 h1 hb _ rfl _ rfl p c

end Cert.LibLaneReads
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.EdgeNet.lean ====
/-
  The scalar network on one edge. Every pair (input `i`, output `o`) carries its own map ℝ → ℝ, a multilayer perceptron
  1 → 5 → 5 → 1 with the activation `silu v = v · σ(v)`, `σ(v) = 1 / (1 + e^(-v))`, after the first two layers:

      hidden₀ h   = silu (w₀ h · x + b₀ h)                           h = 0..4
      hidden₁ g   = silu (Σ_h w₁ g h · hidden₀ h + b₁ g)             g = 0..4
      edge        = Σ_g w₂ g · hidden₁ g + b₂

  read on the extended reals with the exact operations. Nothing below uses more of `+` and `·` than that they are
  commutative and associative, which holds at the infinities too, so no input need be finite.

  A program that accumulates a layer's sum term by term starting FROM THE BIAS computes the same number
  (`bias_first_sum`), and one that writes the first layer's product with the input on the left does too (`mul_comm`):
  `hidden₀_input_left`, `hidden₁_bias_first`, `edge_bias_first` are the three layers in that spelling.
  The sigmoid written out with the float pattern of `1.0` is `σ` (`sigmoid_spelled`).
-/
import Idealize.ShloMosaic.PureOps.Ideal
import Idealize.ShloMosaic.PureOps.Ideal.Laws
import Mathlib.Algebra.BigOperators.Fin

noncomputable section

namespace Cert.EdgeNet

open Idealize.ShloMosaic

/-- `silu v = v · σ(v)`. -/
def silu (v : EReal) : EReal := v * Ideal.logistic v

/-- The first hidden layer's unit `h`. -/
def hidden₀ (x : EReal) (w₀ b₀ : Fin 5 → EReal) (h : Fin 5) : EReal := silu (w₀ h * x + b₀ h)

/-- The second hidden layer's unit `g`. -/
def hidden₁ (x : EReal) (w₀ b₀ : Fin 5 → EReal) (w₁ : Fin 5 → Fin 5 → EReal) (b₁ : Fin 5 → EReal) (g : Fin 5) : EReal :=
  silu ((∑ h, w₁ g h * hidden₀ x w₀ b₀ h) + b₁ g)

/-- The edge's output. -/
def edge (x : EReal) (w₀ b₀ : Fin 5 → EReal) (w₁ : Fin 5 → Fin 5 → EReal) (b₁ w₂ : Fin 5 → EReal) (b₂ : EReal) : EReal :=
  (∑ g, w₂ g * hidden₁ x w₀ b₀ w₁ b₁ g) + b₂

/-- Five terms added one by one onto a bias are their sum plus the bias. -/
theorem bias_first_sum (b : EReal) (f : Fin 5 → EReal) : b + f 0 + f 1 + f 2 + f 3 + f 4 = (∑ h, f h) + b := by
  rw [Fin.sum_univ_five]
  simp only [add_comm, add_left_comm, add_assoc]

/-- The first layer with the input written on the left of the product. -/
theorem hidden₀_input_left (x : EReal) (w₀ b₀ : Fin 5 → EReal) (h : Fin 5) :
    silu (x * w₀ h + b₀ h) = hidden₀ x w₀ b₀ h := by
  unfold hidden₀; rw [mul_comm]

/-- The second layer accumulated from the bias. -/
theorem hidden₁_bias_first (x : EReal) (w₀ b₀ : Fin 5 → EReal) (w₁ : Fin 5 → Fin 5 → EReal) (b₁ : Fin 5 → EReal) (g : Fin 5) :
    silu (b₁ g + w₁ g 0 * hidden₀ x w₀ b₀ 0 + w₁ g 1 * hidden₀ x w₀ b₀ 1 + w₁ g 2 * hidden₀ x w₀ b₀ 2
        + w₁ g 3 * hidden₀ x w₀ b₀ 3 + w₁ g 4 * hidden₀ x w₀ b₀ 4) = hidden₁ x w₀ b₀ w₁ b₁ g := by
  unfold hidden₁
  rw [bias_first_sum (b₁ g) (fun h => w₁ g h * hidden₀ x w₀ b₀ h)]

/-- The output layer accumulated from the bias. -/
theorem edge_bias_first (x : EReal) (w₀ b₀ : Fin 5 → EReal) (w₁ : Fin 5 → Fin 5 → EReal) (b₁ w₂ : Fin 5 → EReal) (b₂ : EReal) :
    b₂ + w₂ 0 * hidden₁ x w₀ b₀ w₁ b₁ 0 + w₂ 1 * hidden₁ x w₀ b₀ w₁ b₁ 1 + w₂ 2 * hidden₁ x w₀ b₀ w₁ b₁ 2
        + w₂ 3 * hidden₁ x w₀ b₀ w₁ b₁ 3 + w₂ 4 * hidden₁ x w₀ b₀ w₁ b₁ 4 = edge x w₀ b₀ w₁ b₁ w₂ b₂ := by
  unfold edge
  rw [bias_first_sum b₂ (fun g => w₂ g * hidden₁ x w₀ b₀ w₁ b₁ g)]

/-- The f32 pattern `0x3F800000` denotes the real `1`. -/
theorem one_f32 : Ideal.ofBits .f32 0x3F800000#32 = 1 := IdealRules.sign_bit.ideal_onePat .f32

/-- The sigmoid written as a quotient over the pattern of `1.0` is `σ`: it is `σ`'s definition. -/
theorem sigmoid_spelled (v : EReal) :
    Ideal.div (Ideal.ofBits .f32 0x3F800000#32) (Ideal.ofBits .f32 0x3F800000#32 + Ideal.exp (-v)) = Ideal.logistic v := by
  rw [one_f32]; rfl

/-- A sum over the one-point index set is its one term. -/
theorem sum_one (f : Fin 1 → EReal) : (∑ k, f k) = f 0 := Fin.sum_univ_one f

end Cert.EdgeNet

end
-- ==== Proof.BodyValue.lean ====
/-
  The kernel body's arithmetic, read at one entry of the tile. At a grid point the body holds seven blocks: the input
  column `x` for 1024 batch rows (`[1, 1, 1024]`), and for the 128 output lanes the weights and biases of the point's 128
  edges, `w₀, w₂, b₀, b₁ : [1, 5, 128]`, `w₁ : [1, 5, 5, 128]`, `b₂ : [1, 1, 128]`, the lane axis last. It lays the batch
  column across the lanes and every per-lane parameter down the rows, evaluates the edge network's three layers with the
  five hidden units unrolled, each running sum started from its bias, and adds the result to the `[1024, 128]` tile.

  Below, each generated payload term (`k0_payN`: one value of the body as a function of earlier ones) is read at the
  entry `(p, q)`: the layout chains collapse to "the parameter of lane `q`" (LibLaneReads, LibColumn) and the pointwise
  operations apply entrywise. `tile` is the tile after the point as one function of the seven blocks and the tile
  before, and `tile_apply` says what it holds at `(p, q)`: the entry before, plus the edge network (EdgeNet.edge) of
  `x` at row `p` with lane `q`'s parameters.
-/
import proofs.«158464_j22789096472783_1_alg».proof.Proof.Gen.KernelIdeal.Skeleton
import proofs.«158464_j22789096472783_1_alg».proof.Proof.LibLaneReads
import proofs.«158464_j22789096472783_1_alg».proof.Proof.LibColumn
import proofs.«158464_j22789096472783_1_alg».proof.Proof.EdgeNet
import Idealize.ShloMosaic.Lib.ValueIdx
import Idealize.ShloMosaic.Lib.ValueLayout

noncomputable section

namespace Cert.KernelIdeal.BodyValue

open Cert.KernelIdeal Cert.KernelIdeal.Gen Idealize.ShloMosaic Idealize.ShloMosaic.ValueIdx Cert.LibLaneReads Cert.LibColumn Cert.EdgeNet

theorem logistic_apply {s : Shape} {φ : FTy} (a : FVec Ideal s φ) (i : s.Idx) : logistic a i = Ideal.logistic (a i) := rfl

variable (p : Fin 1024) (q : Fin 128)

theorem fin5_mk0 (h : 0 < 5) : (⟨0, h⟩ : Fin 5) = 0 := rfl
theorem fin5_mk1 (h : 1 < 5) : (⟨1, h⟩ : Fin 5) = 1 := rfl
theorem fin5_mk2 (h : 2 < 5) : (⟨2, h⟩ : Fin 5) = 2 := rfl
theorem fin5_mk3 (h : 3 < 5) : (⟨3, h⟩ : Fin 5) = 3 := rfl
theorem fin5_mk4 (h : 4 < 5) : (⟨4, h⟩ : Fin 5) = 4 := rfl

/-- `v · σ(v)` is `silu v`. -/
theorem silu_fold (v : EReal) : v * Ideal.logistic v = silu v := rfl

/-! ## The loaded blocks with their unit batch axis dropped -/

theorem pay3_apply (x0 : Vec Ideal S1x1x1024 .f32) (u : Fin 1) : k0_pay3 x0 (ix2 p u) = x0 (ix3 0 0 p) := by
  unfold k0_pay3
  exact (shapeCast_a_a1_apply _ _ p u).trans (shapeCast_11a_a_apply _ _ p)

theorem pay4_apply (x1 : Vec Ideal S1x5x128 .f32) (h : Fin 5) : k0_pay4 x1 (ix2 h q) = x1 (ix3 0 h q) := by
  unfold k0_pay4
  exact shapeCast_1ab_ab_apply _ _ h q

theorem pay5_apply (x3 : Vec Ideal S1x5x128 .f32) (h : Fin 5) : k0_pay5 x3 (ix2 h q) = x3 (ix3 0 h q) := by
  unfold k0_pay5
  exact shapeCast_1ab_ab_apply _ _ h q

theorem pay6_apply (x2 : Vec Ideal S1x5x5x128 .f32) (g h : Fin 5) : k0_pay6 x2 (ix3 g h q) = x2 (ix4 0 g h q) := by
  unfold k0_pay6
  exact shapeCast_1abc_abc_apply _ _ g h q

theorem pay7_apply (x4 : Vec Ideal S1x5x128 .f32) (h : Fin 5) : k0_pay7 x4 (ix2 h q) = x4 (ix3 0 h q) := by
  unfold k0_pay7
  exact shapeCast_1ab_ab_apply _ _ h q

theorem pay8_apply (x5 : Vec Ideal S1x5x128 .f32) (h : Fin 5) : k0_pay8 x5 (ix2 h q) = x5 (ix3 0 h q) := by
  unfold k0_pay8
  exact shapeCast_1ab_ab_apply _ _ h q

theorem pay9_apply (x6 : Vec Ideal S1x1x128 .f32) : k0_pay9 x6 (ix1 q) = x6 (ix3 0 0 q) := by
  unfold k0_pay9
  exact shapeCast_11a_a_apply _ _ q

/-! ## The first hidden layer, unit by unit -/

theorem pay10_apply (x0 : Vec Ideal S1x1x1024 .f32) (x1 x4 : Vec Ideal S1x5x128 .f32) :
    k0_pay10 x0 x1 x4 (ix2 p q) = silu (k0_pay3 x0 (ix2 p 0) * k0_pay4 x1 (ix2 0 q) + k0_pay7 x4 (ix2 0 q)) := by
  unfold k0_pay10
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay11_apply (x1 : Vec Ideal S1x5x128 .f32) : k0_pay11 x1 (ix1 q) = k0_pay4 x1 (ix2 1 q) := by
  unfold k0_pay11
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay12_apply (v5 : FVec Ideal S1024x1 .f32) (v13 : FVec Ideal S5x128 .f32) (v32 : FVec Ideal S128 .f32) :
    k0_pay12 v5 v13 v32 (ix2 p q) = silu (v5 (ix2 p 0) * v32 (ix1 q) + v13 (ix2 1 q)) := by
  unfold k0_pay12
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay13_apply (v5 : FVec Ideal S1024x1 .f32) (v7 v13 : FVec Ideal S5x128 .f32) :
    k0_pay13 v5 v7 v13 (ix2 p q) = silu (v5 (ix2 p 0) * v7 (ix2 2 q) + v13 (ix2 2 q)) := by
  unfold k0_pay13
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay14_apply (v5 : FVec Ideal S1024x1 .f32) (v7 v13 : FVec Ideal S5x128 .f32) :
    k0_pay14 v5 v7 v13 (ix2 p q) = silu (v5 (ix2 p 0) * v7 (ix2 3 q) + v13 (ix2 3 q)) := by
  unfold k0_pay14
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay15_apply (v5 : FVec Ideal S1024x1 .f32) (v7 v13 : FVec Ideal S5x128 .f32) :
    k0_pay15 v5 v7 v13 (ix2 p q) = silu (v5 (ix2 p 0) * v7 (ix2 4 q) + v13 (ix2 4 q)) := by
  unfold k0_pay15
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

/-! ## The second hidden layer: each unit's running sum from its bias -/

theorem pay16_apply (v15 : FVec Ideal S5x128 .f32) : k0_pay16 v15 (ix2 p q) = v15 (ix2 0 q) := by
  unfold k0_pay16
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay17_apply (v11 : FVec Ideal S5x5x128 .f32) (v30 : FVec Ideal S1024x128 .f32) :
    k0_pay17 v11 v30 (ix2 p q) = v11 (ix3 0 0 q) * v30 (ix2 p q) := by
  unfold k0_pay17
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay18_apply (v11 : FVec Ideal S5x5x128 .f32) (v43 v56 v69 v82 v87 v92 : FVec Ideal S1024x128 .f32) :
    k0_pay18 v11 v43 v56 v69 v82 v87 v92 (ix2 p q)
      = silu (v87 (ix2 p q) + v92 (ix2 p q) + v11 (ix3 0 1 q) * v43 (ix2 p q) + v11 (ix3 0 2 q) * v56 (ix2 p q)
          + v11 (ix3 0 3 q) * v69 (ix2 p q) + v11 (ix3 0 4 q) * v82 (ix2 p q)) := by
  unfold k0_pay18
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay19_apply (v11 : FVec Ideal S5x5x128 .f32) (v15 : FVec Ideal S5x128 .f32) (v30 v43 v56 v69 : FVec Ideal S1024x128 .f32) :
    k0_pay19 v11 v15 v30 v43 v56 v69 (ix2 p q)
      = v15 (ix2 1 q) + v11 (ix3 1 0 q) * v30 (ix2 p q) + v11 (ix3 1 1 q) * v43 (ix2 p q) + v11 (ix3 1 2 q) * v56 (ix2 p q)
          + v11 (ix3 1 3 q) * v69 (ix2 p q) := by
  unfold k0_pay19
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay20_apply (v11 : FVec Ideal S5x5x128 .f32) : k0_pay20 v11 (ix2 p q) = v11 (ix3 1 4 q) := by
  unfold k0_pay20
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay21_apply (v82 v148 v152 : FVec Ideal S1024x128 .f32) :
    k0_pay21 v82 v148 v152 (ix2 p q) = silu (v148 (ix2 p q) + v152 (ix2 p q) * v82 (ix2 p q)) := by
  unfold k0_pay21
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay22_apply (v11 : FVec Ideal S5x5x128 .f32) (v15 : FVec Ideal S5x128 .f32) (v30 v43 v56 v69 v82 : FVec Ideal S1024x128 .f32) :
    k0_pay22 v11 v15 v30 v43 v56 v69 v82 (ix2 p q)
      = silu (v15 (ix2 2 q) + v11 (ix3 2 0 q) * v30 (ix2 p q) + v11 (ix3 2 1 q) * v43 (ix2 p q) + v11 (ix3 2 2 q) * v56 (ix2 p q)
          + v11 (ix3 2 3 q) * v69 (ix2 p q) + v11 (ix3 2 4 q) * v82 (ix2 p q)) := by
  unfold k0_pay22
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay23_apply (v11 : FVec Ideal S5x5x128 .f32) (v15 : FVec Ideal S5x128 .f32) (v30 v43 : FVec Ideal S1024x128 .f32) :
    k0_pay23 v11 v15 v30 v43 (ix2 p q)
      = v15 (ix2 3 q) + v11 (ix3 3 0 q) * v30 (ix2 p q) + v11 (ix3 3 1 q) * v43 (ix2 p q) := by
  unfold k0_pay23
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay24_apply (v11 : FVec Ideal S5x5x128 .f32) : k0_pay24 v11 (ix1 q) = v11 (ix3 3 2 q) := by
  unfold k0_pay24
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay25_apply (v11 : FVec Ideal S5x5x128 .f32) (v56 v69 v82 v210 : FVec Ideal S1024x128 .f32) (v212 : FVec Ideal S128 .f32) :
    k0_pay25 v11 v56 v69 v82 v210 v212 (ix2 p q)
      = silu (v210 (ix2 p q) + v212 (ix1 q) * v56 (ix2 p q) + v11 (ix3 3 3 q) * v69 (ix2 p q) + v11 (ix3 3 4 q) * v82 (ix2 p q)) := by
  unfold k0_pay25
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay26_apply (v11 : FVec Ideal S5x5x128 .f32) (v15 : FVec Ideal S5x128 .f32) (v30 v43 v56 v69 v82 : FVec Ideal S1024x128 .f32) :
    k0_pay26 v11 v15 v30 v43 v56 v69 v82 (ix2 p q)
      = silu (v15 (ix2 4 q) + v11 (ix3 4 0 q) * v30 (ix2 p q) + v11 (ix3 4 1 q) * v43 (ix2 p q) + v11 (ix3 4 2 q) * v56 (ix2 p q)
          + v11 (ix3 4 3 q) * v69 (ix2 p q) + v11 (ix3 4 4 q) * v82 (ix2 p q)) := by
  unfold k0_pay26
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

/-! ## The output layer, added to what the tile already holds -/

theorem pay27_apply (v17 : FVec Ideal S128 .f32) : k0_pay27 v17 (ix2 p q) = v17 (ix1 q) := by
  unfold k0_pay27
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay28_apply (v9 : FVec Ideal S5x128 .f32) : k0_pay28 v9 (ix1 q) = v9 (ix2 0 q) := by
  unfold k0_pay28
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

theorem pay1_apply (v9 : FVec Ideal S5x128 .f32) (v119 v156 v193 v230 v267 v270 : FVec Ideal S1024x128 .f32) (v272 : FVec Ideal S128 .f32)
    (v301 : Vec Ideal S1024x128 .f32) :
    k0_pay1 v9 v119 v156 v193 v230 v267 v270 v272 v301 (ix2 p q)
      = v301 (ix2 p q) + (v270 (ix2 p q) + v272 (ix1 q) * v119 (ix2 p q) + v9 (ix2 1 q) * v156 (ix2 p q) + v9 (ix2 2 q) * v193 (ix2 p q)
          + v9 (ix2 3 q) * v230 (ix2 p q) + v9 (ix2 4 q) * v267 (ix2 p q)) := by
  unfold k0_pay1
  simp only [mulf_apply, addf_apply, logistic_apply, shapeCast_self, lane_of_matrix_eq, lanes_of_matrix_eq, lane_of_cube_eq, lanes_of_cube_eq, lane_of_vector, broadcastTo_a1_ab_apply, fin5_mk0, fin5_mk1, fin5_mk2, fin5_mk3, fin5_mk4, silu_fold]

/-- The tile's reset value is `0` at every entry. -/
theorem pay2_apply : k0_pay2 (F := Ideal) (ix2 p q) = 0 := by
  unfold k0_pay2
  exact Ideal.ofBits_zero_f32

/-! ## The tile after one grid point -/

/-- The `[1024, 128]` tile after the body has run at one grid point, from the point's seven blocks (in the kernel's
    operand order: `x`, `w₀`, `w₁`, `w₂`, `b₀`, `b₁`, `b₂`) and the tile before. -/
def tile (x0 : Vec Ideal S1x1x1024 .f32) (x1 : Vec Ideal S1x5x128 .f32) (x2 : Vec Ideal S1x5x5x128 .f32)
    (x3 x4 x5 : Vec Ideal S1x5x128 .f32) (x6 : Vec Ideal S1x1x128 .f32) (acc : Vec Ideal S1024x128 .f32) : FVec Ideal S1024x128 .f32 :=
  k0_pay1 (k0_pay5 x3) (k0_pay18 (k0_pay6 x2) (k0_pay12 (k0_pay3 x0) (k0_pay7 x4) (k0_pay11 x1)) (k0_pay13 (k0_pay3 x0) (k0_pay4 x1) (k0_pay7 x4)) (k0_pay14 (k0_pay3 x0) (k0_pay4 x1) (k0_pay7 x4)) (k0_pay15 (k0_pay3 x0) (k0_pay4 x1) (k0_pay7 x4)) (k0_pay16 (k0_pay8 x5)) (k0_pay17 (k0_pay6 x2) (k0_pay10 x0 x1 x4))) (k0_pay21 (k0_pay15 (k0_pay3 x0) (k0_pay4 x1) (k0_pay7 x4)) (k0_pay19 (k0_pay6 x2) (k0_pay8 x5) (k0_pay10 x0 x1 x4) (k0_pay12 (k0_pay3 x0) (k0_pay7 x4) (k0_pay11 x1)) (k0_pay13 (k0_pay3 x0) (k0_pay4 x1) (k0_pay7 x4)) (k0_pay14 (k0_pay3 x0) (k0_pay4 x1) (k0_pay7 x4))) (k0_pay20 (k0_pay6 x2))) (k0_pay22 (k0_pay6 x2) (k0_pay8 x5) (k0_pay10 x0 x1 x4) (k0_pay12 (k0_pay3 x0) (k0_pay7 x4) (k0_pay11 x1)) (k0_pay13 (k0_pay3 x0) (k0_pay4 x1) (k0_pay7 x4)) (k0_pay14 (k0_pay3 x0) (k0_pay4 x1) (k0_pay7 x4)) (k0_pay15 (k0_pay3 x0) (k0_pay4 x1) (k0_pay7 x4))) (k0_pay25 (k0_pay6 x2) (k0_pay13 (k0_pay3 x0) (k0_pay4 x1) (k0_pay7 x4)) (k0_pay14 (k0_pay3 x0) (k0_pay4 x1) (k0_pay7 x4)) (k0_pay15 (k0_pay3 x0) (k0_pay4 x1) (k0_pay7 x4)) (k0_pay23 (k0_pay6 x2) (k0_pay8 x5) (k0_pay10 x0 x1 x4) (k0_pay12 (k0_pay3 x0) (k0_pay7 x4) (k0_pay11 x1))) (k0_pay24 (k0_pay6 x2))) (k0_pay26 (k0_pay6 x2) (k0_pay8 x5) (k0_pay10 x0 x1 x4) (k0_pay12 (k0_pay3 x0) (k0_pay7 x4) (k0_pay11 x1)) (k0_pay13 (k0_pay3 x0) (k0_pay4 x1) (k0_pay7 x4)) (k0_pay14 (k0_pay3 x0) (k0_pay4 x1) (k0_pay7 x4)) (k0_pay15 (k0_pay3 x0) (k0_pay4 x1) (k0_pay7 x4))) (k0_pay27 (k0_pay9 x6)) (k0_pay28 (k0_pay5 x3)) acc

/-- At the entry `(p, q)` the point adds, to what the tile held, the edge network of the batch row's input under lane
    `q`'s parameters. The body's bias-first running sums and input-on-the-left product are the network's layers
    (EdgeNet's three `…_bias_first` / `…_input_left` lemmas, used right to left on the network's side). -/
theorem tile_apply (x0 : Vec Ideal S1x1x1024 .f32) (x1 : Vec Ideal S1x5x128 .f32) (x2 : Vec Ideal S1x5x5x128 .f32)
    (x3 x4 x5 : Vec Ideal S1x5x128 .f32) (x6 : Vec Ideal S1x1x128 .f32) (acc : Vec Ideal S1024x128 .f32) :
    tile x0 x1 x2 x3 x4 x5 x6 acc (ix2 p q)
      = acc (ix2 p q) + edge (x0 (ix3 0 0 p)) (fun h => x1 (ix3 0 h q)) (fun h => x4 (ix3 0 h q)) (fun g h => x2 (ix4 0 g h q))
          (fun g => x5 (ix3 0 g q)) (fun g => x3 (ix3 0 g q)) (x6 (ix3 0 0 q)) := by
  unfold tile
  simp only [pay1_apply, pay3_apply, pay4_apply, pay5_apply, pay6_apply, pay7_apply, pay8_apply, pay9_apply, pay10_apply, pay11_apply,
    pay12_apply, pay13_apply, pay14_apply, pay15_apply, pay16_apply, pay17_apply, pay18_apply, pay19_apply, pay20_apply, pay21_apply,
    pay22_apply, pay23_apply, pay24_apply, pay25_apply, pay26_apply, pay27_apply, pay28_apply]
  rw [← edge_bias_first]
  simp only [← hidden₁_bias_first, ← hidden₀_input_left]

end Cert.KernelIdeal.BodyValue
end
-- ==== Proof.LayerSum.lean ====
/-
  The layer as one function of its seven arrays. There are 128 inputs and 128 outputs; the edge from input `i` to output
  `o` is network number `i · 128 + o` of 16384, with first-layer weights and biases `W0, B0 : [16384, 5, 1]`, second-layer
  `W1 : [16384, 5, 5]`, `B1 : [16384, 5, 1]`, output-layer `W2 : [16384, 1, 5]`, `B2 : [16384, 1, 1]`. For a batch row `r`
  of `X : [2048, 128]`,

      layer r o = Σ_{i < 128} edge_{i,o} (X r i)                    (EdgeNet.edge)

  A program that sweeps the batch in two tiles of 1024 rows and, inside a tile, the inputs one grid point after another
  (point `n` is tile `n / 128`, input `n % 128`) adds at point `n`, to entry `(p, q)` of the tile, the term of input
  `n % 128` for row `(n / 128) · 1024 + p`: `addend`. The 128 points of tile `b` together add `layer` (`run_sum`).
-/
import proofs.«158464_j22789096472783_1_alg».proof.Proof.EdgeNet
import Idealize.ShloMosaic.Lib.ValueIdx

noncomputable section

namespace Cert.LayerSum

open Idealize.ShloMosaic Idealize.ShloMosaic.ValueIdx Cert.EdgeNet

/-- The edge from input `i` to output `o` is network `i · 128 + o`. -/
def net (i o : Fin 128) : Fin 16384 := ⟨i.val * 128 + o.val, by have := i.isLt; have := o.isLt; omega⟩

/-- The batch row that entry row `p` of the tile has at grid point `n` (tile `n / 128`, of two). -/
def rowOf (n : ℕ) (p : Fin 1024) : Fin 2048 :=
  ⟨n / 128 % 2 * 1024 + p.val, by have := p.isLt; have := Nat.mod_lt (n / 128) (by decide : 0 < 2); omega⟩

/-- The input that grid point `n` handles. -/
def inOf (n : ℕ) : Fin 128 := ⟨n % 128, Nat.mod_lt _ (by decide)⟩

variable (X : (⟨2, ![2048, 128]⟩ : Shape).Idx → EReal)
  (W0 B0 : (⟨3, ![16384, 5, 1]⟩ : Shape).Idx → EReal) (W1 : (⟨3, ![16384, 5, 5]⟩ : Shape).Idx → EReal)
  (B1 : (⟨3, ![16384, 5, 1]⟩ : Shape).Idx → EReal) (W2 : (⟨3, ![16384, 1, 5]⟩ : Shape).Idx → EReal)
  (B2 : (⟨3, ![16384, 1, 1]⟩ : Shape).Idx → EReal)

/-- The edge `i → o` applied to batch row `r`'s input `i`. -/
def edgeAt (r : Fin 2048) (o i : Fin 128) : EReal :=
  edge (X (ix2 r i)) (fun h => W0 (ix3 (net i o) h 0)) (fun h => B0 (ix3 (net i o) h 0)) (fun g h => W1 (ix3 (net i o) g h))
    (fun g => B1 (ix3 (net i o) g 0)) (fun g => W2 (ix3 (net i o) 0 g)) (B2 (ix3 (net i o) 0 0))

/-- The layer's output array. -/
def layer : (⟨2, ![2048, 128]⟩ : Shape).Idx → EReal := fun j =>
  ∑ i : Fin 128, edgeAt X W0 B0 W1 B1 W2 B2 ⟨(j 0).val, idx2_lt0 j⟩ ⟨(j 1).val, idx2_lt1 j⟩ i

/-- What grid point `n` adds to the tile's entry `y`. -/
def addend (n : ℕ) (y : (⟨2, ![1024, 128]⟩ : Shape).Idx) : EReal :=
  edgeAt X W0 B0 W1 B1 W2 B2 (rowOf n ⟨(y 0).val, idx2_lt0 y⟩) ⟨(y 1).val, idx2_lt1 y⟩ (inOf n)

/-- The 128 points of the run that fills the tile holding array entry `j` add, at `j`'s place in the tile, the layer at
    `j`: point `128 · b + s` is tile `b`, input `s`. -/
theorem run_sum (j : (⟨2, ![2048, 128]⟩ : Shape).Idx) (y : (⟨2, ![1024, 128]⟩ : Shape).Idx)
    (hy0 : (y 0).val = (j 0).val % 1024) (hy1 : (y 1).val = (j 1).val) :
    ∑ s ∈ Finset.range 128, addend X W0 B0 W1 B1 W2 B2 (128 * ((j 0).val / 1024) + s) y = layer X W0 B0 W1 B1 W2 B2 j := by
  unfold layer addend
  rw [Finset.sum_range]
  refine Finset.sum_congr rfl fun i _ => ?_
  have hj : (j 0).val < 2048 := idx2_lt0 j
  have hi := i.isLt
  have e1 : rowOf (128 * ((j 0).val / 1024) + i.val) ⟨(y 0).val, idx2_lt0 y⟩ = ⟨(j 0).val, idx2_lt0 j⟩ := by
    apply Fin.ext
    show (128 * ((j 0).val / 1024) + i.val) / 128 % 2 * 1024 + (y 0).val = (j 0).val
    rw [hy0]; omega
  have e2 : inOf (128 * ((j 0).val / 1024) + i.val) = i := by
    apply Fin.ext
    show (128 * ((j 0).val / 1024) + i.val) % 128 = i.val
    omega
  have e3 : (⟨(y 1).val, idx2_lt1 y⟩ : Fin 128) = ⟨(j 1).val, idx2_lt1 j⟩ := Fin.ext hy1
  rw [e1, e2, e3]

end Cert.LayerSum

end
-- ==== Proof.Blocks.lean ====
/-
  What the kernel's seven input blocks hold, in terms of the layer's arrays. Before the kernel runs, the host re-lays
  every array so that the input axis (128) leads and the output axis (128, the lanes) comes last:

      x   [2048, 128]        →  [128, 1, 2048]       entry (i, 0, r)     = X (r, i)
      W0, B0, B1 [16384,5,1] →  [128, 5, 128]        entry (i, h, o)     = W (i·128 + o, h, 0)
      W2  [16384, 1, 5]      →  [128, 5, 128]        entry (i, g, o)     = W2 (i·128 + o, 0, g)
      W1  [16384, 5, 5]      →  [128, 5, 5, 128]     entry (i, g, h, o)  = W1 (i·128 + o, g, h)
      B2  [16384, 1, 1]      →  [128, 1, 128]        entry (i, 0, o)     = B2 (i·128 + o, 0, 0)

  (reshapes that split 16384 = 128 · 128 and drop unit axes, then a transpose that moves the output axis last). At grid
  point `t` — batch tile `t / 128`, input `t % 128` — the kernel's blocks are the slabs at leading index `t % 128` (and, for
  `x`, columns `(t / 128) · 1024 …`). So the block entries are the arrays at network `net (t % 128) q` for lane `q`, and
  at batch row `rowOf t p` for tile row `p`: the `…_block` lemmas, one per window.
-/
import proofs.«158464_j22789096472783_1_alg».proof.Proof.Gen.KernelIdeal.Frame
import proofs.«158464_j22789096472783_1_alg».proof.Proof.LayerSum
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo Cert.LayerSum

variable (m : (ℓ : Loc nD τ sig) → Buf (Elt Ideal) ℓ)

/-! ## The re-laid arrays read at an index -/

/-- `[2048, 128]` transposed and given a unit middle axis. -/
theorem relaid_x (X : S2048x128.Idx → EReal) (i : Fin 128) (u : Fin 1) (r : Fin 2048) :
    shapeCast S128x1x2048 (transpose S128x2048 [1, 0] X transposes_S2048x128_S128x2048_1_0) shapeCasts_S128x2048_S128x1x2048 (ix3 i u r)
      = X (ix2 r i) :=
  (shapeCast_apply _ shapeCasts_S128x2048_S128x1x2048 (ix3 i u r) (ix2 i r) (by
    have hu : u.val = 0 := by omega
    rw [Shape.rowMajor_val_two, Shape.rowMajor_val_three]
    show i.val * 2048 + r.val = (i.val * 1 + u.val) * 2048 + r.val
    rw [hu]; omega)).trans (transpose_ix2_apply X _ i r)

/-- `[16384, 5]` split as `[128, 128, 5]`: entry `(i, o, h)` is row `i · 128 + o`. -/
theorem split_nets (W : S16384x5.Idx → EReal) (i o : Fin 128) (h : Fin 5) :
    shapeCast S128x128x5 W shapeCasts_S16384x5_S128x128x5 (ix3 i o h) = W (ix2 (net i o) h) :=
  shapeCast_apply W shapeCasts_S16384x5_S128x128x5 (ix3 i o h) (ix2 (net i o) h) (by
    rw [Shape.rowMajor_val_two, Shape.rowMajor_val_three]
    show (i.val * 128 + o.val) * 5 + h.val = (i.val * 128 + o.val) * 5 + h.val
    rfl)

/-- `[16384, 5, 1]` re-laid to `[128, 5, 128]`. -/
theorem relaid_w51 (W : S16384x5x1.Idx → EReal) (i : Fin 128) (h : Fin 5) (o : Fin 128) :
    transpose S128x5x128 [0, 2, 1] (shapeCast S128x128x5 (shapeCast S16384x5 W shapeCasts_S16384x5x1_S16384x5) shapeCasts_S16384x5_S128x128x5)
        transposes_S128x128x5_S128x5x128_0_2_1 (ix3 i h o)
      = W (ix3 (net i o) h 0) :=
  (transpose_ix3_021_apply _ transposes_S128x128x5_S128x5x128_0_2_1 i h o).trans
    ((split_nets _ i o h).trans (shapeCast_apply W shapeCasts_S16384x5x1_S16384x5 (ix2 (net i o) h) (ix3 (net i o) h (0 : Fin 1)) (by
      rw [Shape.rowMajor_val_two, Shape.rowMajor_val_three]
      show ((net i o).val * 5 + h.val) * 1 + 0 = (net i o).val * 5 + h.val
      omega)))

/-- `[16384, 1, 5]` re-laid to `[128, 5, 128]`. -/
theorem relaid_w15 (W : S16384x1x5.Idx → EReal) (i : Fin 128) (g : Fin 5) (o : Fin 128) :
    transpose S128x5x128 [0, 2, 1] (shapeCast S128x128x5 (shapeCast S16384x5 W shapeCasts_S16384x1x5_S16384x5) shapeCasts_S16384x5_S128x128x5)
        transposes_S128x128x5_S128x5x128_0_2_1 (ix3 i g o)
      = W (ix3 (net i o) 0 g) :=
  (transpose_ix3_021_apply _ transposes_S128x128x5_S128x5x128_0_2_1 i g o).trans
    ((split_nets _ i o g).trans (shapeCast_apply W shapeCasts_S16384x1x5_S16384x5 (ix2 (net i o) g) (ix3 (net i o) (0 : Fin 1) g) (by
      rw [Shape.rowMajor_val_two, Shape.rowMajor_val_three]
      show ((net i o).val * 1 + 0) * 5 + g.val = (net i o).val * 5 + g.val
      omega)))

/-- `[16384, 5, 5]` re-laid to `[128, 5, 5, 128]`. -/
theorem relaid_w55 (W : S16384x5x5.Idx → EReal) (i : Fin 128) (g h : Fin 5) (o : Fin 128) :
    transpose S128x5x5x128 [0, 2, 3, 1] (shapeCast S128x128x5x5 W shapeCasts_S16384x5x5_S128x128x5x5)
        transposes_S128x128x5x5_S128x5x5x128_0_2_3_1 (ix4 i g h o)
      = W (ix3 (net i o) g h) :=
  (transpose_apply _ _ transposes_S128x128x5x5_S128x5x5x128_0_2_3_1 (ix4 i g h o) (ix4 i o g h)
      (fun b => match b with | ⟨0, _⟩ => rfl | ⟨1, _⟩ => rfl | ⟨2, _⟩ => rfl | ⟨3, _⟩ => rfl)).trans
    (shapeCast_apply W shapeCasts_S16384x5x5_S128x128x5x5 (ix4 i o g h) (ix3 (net i o) g h) (by
      rw [Shape.rowMajor_val_three, Shape.rowMajor_val_four]
      show ((i.val * 128 + o.val) * 5 + g.val) * 5 + h.val = ((i.val * 128 + o.val) * 5 + g.val) * 5 + h.val
      rfl))

/-- `[16384, 1, 1]` re-laid to `[128, 1, 128]`. -/
theorem relaid_b11 (B : S16384x1x1.Idx → EReal) (i : Fin 128) (u : Fin 1) (o : Fin 128) :
    broadcastInDim S128x1x128 ![0, 2] bcast_S128x128_S128x1x128_0_2
        (shapeCast S128x128 (shapeCast S16384 B shapeCasts_S16384x1x1_S16384) shapeCasts_S16384_S128x128) (ix3 i u o)
      = B (ix3 (net i o) 0 0) :=
  (broadcastInDim_apply _ bcast_S128x128_S128x1x128_0_2 _ (ix3 i u o) (ix2 i o) (fun a => match a with
      | ⟨0, _⟩ => by show i.val = if (128 : Nat) = 1 then 0 else i.val; rw [if_neg (by decide)]
      | ⟨1, _⟩ => by show o.val = if (128 : Nat) = 1 then 0 else o.val; rw [if_neg (by decide)])).trans
    ((shapeCast_apply _ shapeCasts_S16384_S128x128 (ix2 i o) (ix1 (net i o)) (by
        rw [Shape.rowMajor_val_one, Shape.rowMajor_val_two]
        show i.val * 128 + o.val = i.val * 128 + o.val
        rfl)).trans
      (shapeCast_apply B shapeCasts_S16384x1x1_S16384 (ix1 (net i o)) (ix3 (net i o) (0 : Fin 1) (0 : Fin 1)) (by
        rw [Shape.rowMajor_val_three, Shape.rowMajor_val_one]
        show ((net i o).val * 1 + 0) * 1 + 0 = (net i o).val
        omega)))

/-! ## The arrays the kernel finds: the host's operations on the arguments -/

theorem V_x (c : Dev nD) : (V m c main_v1 : S128x1x2048.Idx → EReal)
    = shapeCast S128x1x2048 (transpose S128x2048 [1, 0] (m ((c : Thread nD τ).loc main_arg0)) transposes_S2048x128_S128x2048_1_0) shapeCasts_S128x2048_S128x1x2048 := by
  dsimp only [Gen.V, Gen.hostOps0]; after_results; rfl

theorem V_w0 (c : Dev nD) : (V m c main_v4 : S128x5x128.Idx → EReal)
    = transpose S128x5x128 [0, 2, 1] (shapeCast S128x128x5 (shapeCast S16384x5 (m ((c : Thread nD τ).loc main_arg1)) shapeCasts_S16384x5x1_S16384x5) shapeCasts_S16384x5_S128x128x5) transposes_S128x128x5_S128x5x128_0_2_1 := by
  dsimp only [Gen.V, Gen.hostOps0]; after_results; rfl

theorem V_w2 (c : Dev nD) : (V m c main_v7 : S128x5x128.Idx → EReal)
    = transpose S128x5x128 [0, 2, 1] (shapeCast S128x128x5 (shapeCast S16384x5 (m ((c : Thread nD τ).loc main_arg5)) shapeCasts_S16384x1x5_S16384x5) shapeCasts_S16384x5_S128x128x5) transposes_S128x128x5_S128x5x128_0_2_1 := by
  dsimp only [Gen.V, Gen.hostOps0]; after_results; rfl

theorem V_w1 (c : Dev nD) : (V m c main_v9 : S128x5x5x128.Idx → EReal)
    = transpose S128x5x5x128 [0, 2, 3, 1] (shapeCast S128x128x5x5 (m ((c : Thread nD τ).loc main_arg3)) shapeCasts_S16384x5x5_S128x128x5x5) transposes_S128x128x5x5_S128x5x5x128_0_2_3_1 := by
  dsimp only [Gen.V, Gen.hostOps0]; after_results; rfl

theorem V_b0 (c : Dev nD) : (V m c main_v12 : S128x5x128.Idx → EReal)
    = transpose S128x5x128 [0, 2, 1] (shapeCast S128x128x5 (shapeCast S16384x5 (m ((c : Thread nD τ).loc main_arg2)) shapeCasts_S16384x5x1_S16384x5) shapeCasts_S16384x5_S128x128x5) transposes_S128x128x5_S128x5x128_0_2_1 := by
  dsimp only [Gen.V, Gen.hostOps0]; after_results; rfl

theorem V_b1 (c : Dev nD) : (V m c main_v15 : S128x5x128.Idx → EReal)
    = transpose S128x5x128 [0, 2, 1] (shapeCast S128x128x5 (shapeCast S16384x5 (m ((c : Thread nD τ).loc main_arg4)) shapeCasts_S16384x5x1_S16384x5) shapeCasts_S16384x5_S128x128x5) transposes_S128x128x5_S128x5x128_0_2_1 := by
  dsimp only [Gen.V, Gen.hostOps0]; after_results; rfl

theorem V_b2 (c : Dev nD) : (V m c main_v18 : S128x1x128.Idx → EReal)
    = broadcastInDim S128x1x128 ![0, 2] bcast_S128x128_S128x1x128_0_2 (shapeCast S128x128 (shapeCast S16384 (m ((c : Thread nD τ).loc main_arg6)) shapeCasts_S16384x1x1_S16384) shapeCasts_S16384_S128x128) := by
  dsimp only [Gen.V, Gen.hostOps0]; after_results; rfl

/-! ## The windows' index maps over the grid: point `t` is tile `t / 128`, input `t % 128` -/

theorem idx0 : ∀ t : Fin cfg0.N, win0_0.index t (0 : Fin 3) = t.val % 128 ∧ win0_0.index t (1 : Fin 3) = 0 ∧ win0_0.index t (2 : Fin 3) = t.val / 128 :=
  (by decide +kernel : ∀ t : Fin grid0.N, _)
theorem idx1 : ∀ t : Fin cfg0.N, win0_1.index t (0 : Fin 3) = t.val % 128 ∧ win0_1.index t (1 : Fin 3) = 0 ∧ win0_1.index t (2 : Fin 3) = 0 :=
  (by decide +kernel : ∀ t : Fin grid0.N, _)
theorem idx2 : ∀ t : Fin cfg0.N, win0_2.index t (0 : Fin 4) = t.val % 128 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 3) = t.val % 128 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val % 128 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val % 128 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val % 128 ∧ win0_6.index t (1 : Fin 3) = 0 ∧ win0_6.index t (2 : Fin 3) = 0 :=
  (by decide +kernel : ∀ t : Fin grid0.N, _)

/-! ## Where a block's entry lies in its array: index × block size + offset, axis by axis -/

theorem emb0 (t : Fin cfg0.N) (p : Fin 1024) :
    ((cfg0.win 0).blk t).view.emb (ix3 (0 : Fin 1) (0 : Fin 1) p) = ix3 (inOf t.val) (0 : Fin 1) (rowOf t.val p) := by
  obtain ⟨e0, e1, e2⟩ := idx0 t
  have hN : t.val < 256 := lt_of_lt_of_eq t.isLt (show cfg0.N = 256 from N_0)
  funext a; apply Fin.ext
  match a with
  | ⟨0, _⟩ => show win0_0.index t (0 : Fin 3) * 1 + 1 * 0 = t.val % 128; omega
  | ⟨1, _⟩ => show win0_0.index t (1 : Fin 3) * 1 + 1 * 0 = 0; omega
  | ⟨2, _⟩ => show win0_0.index t (2 : Fin 3) * 1024 + 1 * p.val = t.val / 128 % 2 * 1024 + p.val; omega

theorem emb1 (t : Fin cfg0.N) (h : Fin 5) (q : Fin 128) :
    ((cfg0.win 1).blk t).view.emb (ix3 (0 : Fin 1) h q) = ix3 (inOf t.val) h q := by
  obtain ⟨e0, e1, e2⟩ := idx1 t
  funext a; apply Fin.ext
  match a with
  | ⟨0, _⟩ => show win0_1.index t (0 : Fin 3) * 1 + 1 * 0 = t.val % 128; omega
  | ⟨1, _⟩ => show win0_1.index t (1 : Fin 3) * 5 + 1 * h.val = h.val; omega
  | ⟨2, _⟩ => show win0_1.index t (2 : Fin 3) * 128 + 1 * q.val = q.val; omega

theorem emb2 (t : Fin cfg0.N) (g h : Fin 5) (q : Fin 128) :
    ((cfg0.win 2).blk t).view.emb (ix4 (0 : Fin 1) g h q) = ix4 (inOf t.val) g h q := by
  obtain ⟨e0, e1, e2, e3⟩ := idx2 t
  funext a; apply Fin.ext
  match a with
  | ⟨0, _⟩ => show win0_2.index t (0 : Fin 4) * 1 + 1 * 0 = t.val % 128; omega
  | ⟨1, _⟩ => show win0_2.index t (1 : Fin 4) * 5 + 1 * g.val = g.val; omega
  | ⟨2, _⟩ => show win0_2.index t (2 : Fin 4) * 5 + 1 * h.val = h.val; omega
  | ⟨3, _⟩ => show win0_2.index t (3 : Fin 4) * 128 + 1 * q.val = q.val; omega

theorem emb3 (t : Fin cfg0.N) (h : Fin 5) (q : Fin 128) :
    ((cfg0.win 3).blk t).view.emb (ix3 (0 : Fin 1) h q) = ix3 (inOf t.val) h q := by
  obtain ⟨e0, e1, e2⟩ := idx3 t
  funext a; apply Fin.ext
  match a with
  | ⟨0, _⟩ => show win0_3.index t (0 : Fin 3) * 1 + 1 * 0 = t.val % 128; omega
  | ⟨1, _⟩ => show win0_3.index t (1 : Fin 3) * 5 + 1 * h.val = h.val; omega
  | ⟨2, _⟩ => show win0_3.index t (2 : Fin 3) * 128 + 1 * q.val = q.val; omega

theorem emb4 (t : Fin cfg0.N) (h : Fin 5) (q : Fin 128) :
    ((cfg0.win 4).blk t).view.emb (ix3 (0 : Fin 1) h q) = ix3 (inOf t.val) h q := by
  obtain ⟨e0, e1, e2⟩ := idx4 t
  funext a; apply Fin.ext
  match a with
  | ⟨0, _⟩ => show win0_4.index t (0 : Fin 3) * 1 + 1 * 0 = t.val % 128; omega
  | ⟨1, _⟩ => show win0_4.index t (1 : Fin 3) * 5 + 1 * h.val = h.val; omega
  | ⟨2, _⟩ => show win0_4.index t (2 : Fin 3) * 128 + 1 * q.val = q.val; omega

theorem emb5 (t : Fin cfg0.N) (h : Fin 5) (q : Fin 128) :
    ((cfg0.win 5).blk t).view.emb (ix3 (0 : Fin 1) h q) = ix3 (inOf t.val) h q := by
  obtain ⟨e0, e1, e2⟩ := idx5 t
  funext a; apply Fin.ext
  match a with
  | ⟨0, _⟩ => show win0_5.index t (0 : Fin 3) * 1 + 1 * 0 = t.val % 128; omega
  | ⟨1, _⟩ => show win0_5.index t (1 : Fin 3) * 5 + 1 * h.val = h.val; omega
  | ⟨2, _⟩ => show win0_5.index t (2 : Fin 3) * 128 + 1 * q.val = q.val; omega

theorem emb6 (t : Fin cfg0.N) (q : Fin 128) :
    ((cfg0.win 6).blk t).view.emb (ix3 (0 : Fin 1) (0 : Fin 1) q) = ix3 (inOf t.val) (0 : Fin 1) q := by
  obtain ⟨e0, e1, e2⟩ := idx6 t
  funext a; apply Fin.ext
  match a with
  | ⟨0, _⟩ => show win0_6.index t (0 : Fin 3) * 1 + 1 * 0 = t.val % 128; omega
  | ⟨1, _⟩ => show win0_6.index t (1 : Fin 3) * 1 + 1 * 0 = 0; omega
  | ⟨2, _⟩ => show win0_6.index t (2 : Fin 3) * 128 + 1 * q.val = q.val; omega

/-! ## The seven blocks at a grid point -/

/-- The `x` block: tile row `p` is batch row `rowOf t p`, input `t % 128`. -/
theorem x_block (c : Dev nD) (t : Fin cfg0.N) (p : Fin 1024) :
    iblk m c 0 t (ix3 (0 : Fin 1) (0 : Fin 1) p) = m ((c : Thread nD τ).loc main_arg0) (ix2 (rowOf t.val p) (inOf t.val)) := by
  show V m c main_v1 (((cfg0.win 0).blk t).view.emb (ix3 (0 : Fin 1) (0 : Fin 1) p)) = _
  rw [V_x, emb0]
  exact relaid_x _ _ _ _

/-- The first layer's weights: lane `q` is network `net (t % 128) q`. -/
theorem w0_block (c : Dev nD) (t : Fin cfg0.N) (h : Fin 5) (q : Fin 128) :
    iblk m c 1 t (ix3 (0 : Fin 1) h q) = m ((c : Thread nD τ).loc main_arg1) (ix3 (net (inOf t.val) q) h 0) := by
  show V m c main_v4 (((cfg0.win 1).blk t).view.emb (ix3 (0 : Fin 1) h q)) = _
  rw [V_w0, emb1]
  exact relaid_w51 _ _ _ _

/-- The second layer's weights. -/
theorem w1_block (c : Dev nD) (t : Fin cfg0.N) (g h : Fin 5) (q : Fin 128) :
    iblk m c 2 t (ix4 (0 : Fin 1) g h q) = m ((c : Thread nD τ).loc main_arg3) (ix3 (net (inOf t.val) q) g h) := by
  show V m c main_v9 (((cfg0.win 2).blk t).view.emb (ix4 (0 : Fin 1) g h q)) = _
  rw [V_w1, emb2]
  exact relaid_w55 _ _ _ _ _

/-- The output layer's weights. -/
theorem w2_block (c : Dev nD) (t : Fin cfg0.N) (g : Fin 5) (q : Fin 128) :
    iblk m c 3 t (ix3 (0 : Fin 1) g q) = m ((c : Thread nD τ).loc main_arg5) (ix3 (net (inOf t.val) q) 0 g) := by
  show V m c main_v7 (((cfg0.win 3).blk t).view.emb (ix3 (0 : Fin 1) g q)) = _
  rw [V_w2, emb3]
  exact relaid_w15 _ _ _ _

/-- The first layer's biases. -/
theorem b0_block (c : Dev nD) (t : Fin cfg0.N) (h : Fin 5) (q : Fin 128) :
    iblk m c 4 t (ix3 (0 : Fin 1) h q) = m ((c : Thread nD τ).loc main_arg2) (ix3 (net (inOf t.val) q) h 0) := by
  show V m c main_v12 (((cfg0.win 4).blk t).view.emb (ix3 (0 : Fin 1) h q)) = _
  rw [V_b0, emb4]
  exact relaid_w51 _ _ _ _

/-- The second layer's biases. -/
theorem b1_block (c : Dev nD) (t : Fin cfg0.N) (g : Fin 5) (q : Fin 128) :
    iblk m c 5 t (ix3 (0 : Fin 1) g q) = m ((c : Thread nD τ).loc main_arg4) (ix3 (net (inOf t.val) q) g 0) := by
  show V m c main_v15 (((cfg0.win 5).blk t).view.emb (ix3 (0 : Fin 1) g q)) = _
  rw [V_b1, emb5]
  exact relaid_w51 _ _ _ _

/-- The output layer's bias. -/
theorem b2_block (c : Dev nD) (t : Fin cfg0.N) (q : Fin 128) :
    iblk m c 6 t (ix3 (0 : Fin 1) (0 : Fin 1) q) = m ((c : Thread nD τ).loc main_arg6) (ix3 (net (inOf t.val) q) 0 0) := by
  show V m c main_v18 (((cfg0.win 6).blk t).view.emb (ix3 (0 : Fin 1) (0 : Fin 1) q)) = _
  rw [V_b2, emb6]
  exact relaid_b11 _ _ _ _

end Cert.KernelIdeal.Blocks
end
-- ==== Proof.KernelValue.lean ====
/-
  The kernel's result is the layer. The grid is (2 batch tiles) × (128 inputs), the input axis innermost, and the output
  tile `[1024, 128]` of a batch tile stays in its buffer across the tile's 128 points: the first point resets it to zero
  and adds its term, every later point adds its term, and the last point's contents are written back. The generated
  value leg states exactly that — the array ends as the fold `accAt reset step` of each tile's run, read at the entry's
  place in the tile. Here: the reset and the step are the body's `tile` at the point's seven blocks; by `tile_apply` and
  the block lemmas each adds `LayerSum.addend` of the point; so the fold is the sum of the run's 128 addends over zero
  (the library's unrolled fold), which is `LayerSum.layer` (`run_sum`).
-/
import proofs.«158464_j22789096472783_1_alg».proof.Proof.Gen.KernelIdeal.Value
import proofs.«158464_j22789096472783_1_alg».proof.Proof.BodyValue
import proofs.«158464_j22789096472783_1_alg».proof.Proof.Blocks
import proofs.«158464_j22789096472783_1_alg».proof.Proof.LayerSum

noncomputable section

namespace Cert.KernelIdeal.KernelValue

open Cert.KernelIdeal Cert.KernelIdeal.Gen Cert.KernelIdeal.Value Cert.KernelIdeal.BodyValue Cert.KernelIdeal.Blocks
open Idealize.ShloMosaic Idealize.ShloMosaic.TcCoe Idealize.ShloMosaic.ValueIdx Idealize.SL.Sem Cert.LayerSum Cert.EdgeNet

variable (m : (ℓ : Loc nD τ sig) → Buf (Elt Ideal) ℓ)

/-- What grid point `n` adds to the tile's entry `y` on core `c`: the layer's addend over the argument arrays. -/
abbrev pointAdds (c : Dev nD) (n : ℕ) (y : S1024x128.Idx) : EReal :=
  addend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n y

/-- The point's seven blocks, each at its literal vector type (in the kernel's operand order). -/
abbrev blkX (c : Dev nD) (t : Fin cfg0.N) : Vec Ideal S1x1x1024 .f32 := iblk m c 0 t
abbrev blkW0 (c : Dev nD) (t : Fin cfg0.N) : Vec Ideal S1x5x128 .f32 := iblk m c 1 t
abbrev blkW1 (c : Dev nD) (t : Fin cfg0.N) : Vec Ideal S1x5x5x128 .f32 := iblk m c 2 t
abbrev blkW2 (c : Dev nD) (t : Fin cfg0.N) : Vec Ideal S1x5x128 .f32 := iblk m c 3 t
abbrev blkB0 (c : Dev nD) (t : Fin cfg0.N) : Vec Ideal S1x5x128 .f32 := iblk m c 4 t
abbrev blkB1 (c : Dev nD) (t : Fin cfg0.N) : Vec Ideal S1x5x128 .f32 := iblk m c 5 t
abbrev blkB2 (c : Dev nD) (t : Fin cfg0.N) : Vec Ideal S1x1x128 .f32 := iblk m c 6 t

/-- A later point's step is the body's tile update at the point's blocks. -/
theorem step_eq_tile (c : Dev nD) (n : ℕ) (h : n < cfg0.N) (acc : Vec Ideal S1024x128 .f32) :
    step7 (F := Ideal) m c n h acc = tile (blkX m c ⟨n, h⟩) (blkW0 m c ⟨n, h⟩) (blkW1 m c ⟨n, h⟩) (blkW2 m c ⟨n, h⟩) (blkB0 m c ⟨n, h⟩) (blkB1 m c ⟨n, h⟩) (blkB2 m c ⟨n, h⟩) acc := rfl

/-- The first point's value is the tile update over the zero tile. -/
theorem reset_eq_tile (c : Dev nD) (n : ℕ) (h : n < cfg0.N) :
    reset7 (F := Ideal) m c n h = tile (blkX m c ⟨n, h⟩) (blkW0 m c ⟨n, h⟩) (blkW1 m c ⟨n, h⟩) (blkW2 m c ⟨n, h⟩) (blkB0 m c ⟨n, h⟩) (blkB1 m c ⟨n, h⟩) (blkB2 m c ⟨n, h⟩) (k0_pay2 (F := Ideal)) := rfl

/-- The edge network depends on its parameters only through their values. -/
theorem edge_congr {x x' : EReal} {w₀ w₀' b₀ b₀' : Fin 5 → EReal} {w₁ w₁' : Fin 5 → Fin 5 → EReal} {b₁ b₁' w₂ w₂' : Fin 5 → EReal}
    {b₂ b₂' : EReal} (hx : x = x') (h0 : ∀ k, w₀ k = w₀' k) (hb0 : ∀ k, b₀ k = b₀' k) (h1 : ∀ g k, w₁ g k = w₁' g k)
    (hb1 : ∀ g, b₁ g = b₁' g) (h2 : ∀ g, w₂ g = w₂' g) (hb2 : b₂ = b₂') :
    edge x w₀ b₀ w₁ b₁ w₂ b₂ = edge x' w₀' b₀' w₁' b₁' w₂' b₂' := by
  rw [hx, hb2, show w₀ = w₀' from funext h0, show b₀ = b₀' from funext hb0, show w₁ = w₁' from funext fun g => funext (h1 g),
    show b₁ = b₁' from funext hb1, show w₂ = w₂' from funext h2]

/-- The tile update at the blocks of point `n` adds the point's addend, entry by entry: the body's arithmetic at the
    entry (`tile_apply`), each block entry being the array entry the block lemmas name. -/
theorem tile_at_point (c : Dev nD) (n : ℕ) (h : n < cfg0.N) (acc : Vec Ideal S1024x128 .f32) (p : Fin 1024) (q : Fin 128) :
    tile (blkX m c ⟨n, h⟩) (blkW0 m c ⟨n, h⟩) (blkW1 m c ⟨n, h⟩) (blkW2 m c ⟨n, h⟩) (blkB0 m c ⟨n, h⟩) (blkB1 m c ⟨n, h⟩) (blkB2 m c ⟨n, h⟩) acc (ix2 p q) = acc (ix2 p q) + pointAdds m c n (ix2 p q) := by
  refine (tile_apply p q (blkX m c ⟨n, h⟩) (blkW0 m c ⟨n, h⟩) (blkW1 m c ⟨n, h⟩) (blkW2 m c ⟨n, h⟩) (blkB0 m c ⟨n, h⟩) (blkB1 m c ⟨n, h⟩) (blkB2 m c ⟨n, h⟩) acc).trans ?_
  refine congrArg (acc (ix2 p q) + ·) ?_
  exact edge_congr (x_block m c ⟨n, h⟩ p) (fun k => w0_block m c ⟨n, h⟩ k q) (fun k => b0_block m c ⟨n, h⟩ k q)
    (fun g k => w1_block m c ⟨n, h⟩ g k q) (fun g => b1_block m c ⟨n, h⟩ g q) (fun g => w2_block m c ⟨n, h⟩ g q)
    (b2_block m c ⟨n, h⟩ q)

theorem step_apply (c : Dev nD) (n : ℕ) (h : n < cfg0.N) (acc : S1024x128.Idx → EReal) (y : S1024x128.Idx) :
    step7 (F := Ideal) m c n h acc y = acc y + pointAdds m c n y := by
  obtain ⟨p, q, rfl⟩ : ∃ (p : Fin 1024) (q : Fin 128), y = ix2 p q := ⟨y 0, y 1, eq_ix2 y⟩
  rw [step_eq_tile]; exact tile_at_point m c n h acc p q

theorem reset_apply (c : Dev nD) (n : ℕ) (h : n < cfg0.N) (y : S1024x128.Idx) :
    reset7 (F := Ideal) m c n h y = (fun _ => (0 : EReal)) y + pointAdds m c n y := by
  obtain ⟨p, q, rfl⟩ : ∃ (p : Fin 1024) (q : Fin 128), y = ix2 p q := ⟨y 0, y 1, eq_ix2 y⟩
  rw [reset_eq_tile, tile_at_point, pay2_apply]

/-- THE KERNEL'S RESULT is the layer. -/
theorem result_eq_layer (c : Dev nD) : G7 (F := Ideal) m c = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  have hi0 : (i 0).val < 2048 := idx2_lt0 i
  have hi1 : (i 1).val < 128 := idx2_lt1 i
  have hr : run7Of i = (i 0).val / 1024 := by
    show 1 * ((i 0).val / 1024 - 0) + 1 * ((i 1).val / 128 - 0) = (i 0).val / 1024
    omega
  have hN : cfg0.N = 256 := N_0
  have hlt : 128 * run7Of i + 127 < cfg0.N := by rw [hr, hN]; omega
  unfold G7
  rw [dif_pos hlt]
  rw [Pipeline.accAt_add_apply (reset7 (F := Ideal) m c) (step7 (F := Ideal) m c) (fun _ => (0 : EReal)) (pointAdds m c)
    (128 * run7Of i) 127 (fun h y => reset_apply m c _ h y) (fun n h acc y _ _ => step_apply m c n h acc y) 127 le_rfl hlt (loc7Of i)]
  rw [zero_add, hr]
  exact run_sum _ _ _ _ _ _ _ i (loc7Of i) rfl (Nat.mod_eq_of_lt hi1)

end Cert.KernelIdeal.KernelValue

end
-- ==== Proof.RefValue.lean ====
/-
  The reference program is the layer. It repeats each input column 128 times so that network `n = i · 128 + o` sees input
  `i = n / 128` for every batch row, applies the three layers to all 16384 networks at once — each layer a batched
  matrix product (a sum over the 1 or 5 units of the layer before) plus a broadcast bias, the first two followed by
  `silu`, whose sigmoid jax writes out as `1 / (1 + exp (-v))` —, regroups the networks as `[128 inputs, 128 outputs]`,
  sums over the inputs from `0`, and transposes to `[batch, outputs]`.

  Read at an index through the generated one-operation-at-a-time lemmas, network `n`'s result for batch row `b` is the
  edge network (EdgeNet.edge) of `X (b, n / 128)` under network `n`'s parameters, and the whole result is
  `LayerSum.layer`.
-/
import proofs.«158464_j22789096472783_1_alg».proof.Proof.Gen.ReferenceIdeal.Read
import proofs.«158464_j22789096472783_1_alg».proof.Proof.LayerSum
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.EdgeNet Cert.LayerSum

/-- The input that network `n` reads. -/
def inp (n : Fin 16384) : Fin 128 := ⟨n.val / 128, by have := n.isLt; omega⟩

theorem inp_net (i o : Fin 128) : inp (net i o) = i := by
  apply Fin.ext
  show (i.val * 128 + o.val) / 128 = i.val
  have := o.isLt; omega

variable (X : (⟨S2048x128, .f32⟩ : BufTy).Contents (Elt Ideal)) (W0 B0 : (⟨S16384x5x1, .f32⟩ : BufTy).Contents (Elt Ideal)) (W1 : (⟨S16384x5x5, .f32⟩ : BufTy).Contents (Elt Ideal)) (B1 : (⟨S16384x5x1, .f32⟩ : BufTy).Contents (Elt Ideal)) (W2 : (⟨S16384x1x5, .f32⟩ : BufTy).Contents (Elt Ideal)) (B2 : (⟨S16384x1x1, .f32⟩ : BufTy).Contents (Elt Ideal))

/-! ## The input, repeated per network -/

/-- The repeated, regrouped input at network `n`, batch row `b`, is `X (b, n / 128)`. -/
theorem input_apply (n : Fin 16384) (u : Fin 1) (b : Fin 2048) :
    val_main_v3 (F := Ideal) X (ix3 n u b) = X (ix2 b (inp n)) := by
  rw [val_main_v3_apply, val_main_v2_apply, val_main_v1_apply, val_main_v0_apply]
  refine congrArg X (funext fun a => Fin.ext ?_)
  have hn := n.isLt; have hb := b.isLt
  match a with
  | ⟨0, _⟩ => show (n.val * 2048 + b.val) % 2048 = b.val; omega
  | ⟨1, _⟩ => show (n.val * 2048 + b.val) / 262144 = n.val / 128; omega

/-! ## The first layer -/

theorem pre₀_apply (n : Fin 16384) (h : Fin 5) (b : Fin 2048) :
    val_main_v6 (F := Ideal) X W0 B0 (ix3 n h b) = W0 (ix3 n h 0) * X (ix2 b (inp n)) + B0 (ix3 n h 0) := by
  rw [val_main_v6_apply, val_main_v4_apply, val_main_v5_apply, sum_one]
  have el : lidx_main_v4 (ix3 n h b) (0 : Fin 1) = ix3 n h (0 : Fin 1) := funext fun a => Fin.ext (by
    match a with | ⟨0, _⟩ => rfl | ⟨1, _⟩ => rfl | ⟨2, _⟩ => rfl)
  have er : ridx_main_v4 (ix3 n h b) (0 : Fin 1) = ix3 n (0 : Fin 1) b := funext fun a => Fin.ext (by
    match a with | ⟨0, _⟩ => rfl | ⟨1, _⟩ => rfl | ⟨2, _⟩ => rfl)
  have eb : idx_main_v5 (ix3 n h b) = ix3 n h (0 : Fin 1) := funext fun a => Fin.ext (by
    match a with | ⟨0, _⟩ => rfl | ⟨1, _⟩ => rfl | ⟨2, _⟩ => rfl)
  rw [el, er, eb, input_apply]
  rfl

/-- The host's spelled-out `silu` of the first layer's pre-activation. -/
theorem act₀_apply (i : S16384x5x2048.Idx) :
    val_main_v7 (F := Ideal) X W0 B0 i = silu (val_main_v6 (F := Ideal) X W0 B0 i) := by
  rw [val_main_v7_apply, val_main_call0_v5_apply, val_main_call0_v4_apply, val_main_call0_cst_0_apply, val_main_call0_v3_apply,
    val_main_call0_v2_apply, val_main_call0_cst_apply, val_main_call0_v1_apply, val_main_call0_v0_apply]
  exact congrArg (val_main_v6 (F := Ideal) X W0 B0 i * ·) (sigmoid_spelled _)

theorem hidden₀_apply (n : Fin 16384) (h : Fin 5) (b : Fin 2048) :
    val_main_v7 (F := Ideal) X W0 B0 (ix3 n h b)
      = hidden₀ (X (ix2 b (inp n))) (fun h => W0 (ix3 n h 0)) (fun h => B0 (ix3 n h 0)) h := by
  rw [act₀_apply, pre₀_apply]
  rfl

/-! ## The second layer -/

theorem pre₁_apply (n : Fin 16384) (g : Fin 5) (b : Fin 2048) :
    val_main_v10 (F := Ideal) X W0 B0 W1 B1 (ix3 n g b)
      = (∑ k : Fin 5, W1 (ix3 n g k) * val_main_v7 (F := Ideal) X W0 B0 (ix3 n k b)) + B1 (ix3 n g 0) := by
  rw [val_main_v10_apply, val_main_v8_apply, val_main_v9_apply]
  have el : ∀ k : Fin 5, lidx_main_v8 (ix3 n g b) k = ix3 n g k := fun k => funext fun a => Fin.ext (by
    match a with | ⟨0, _⟩ => rfl | ⟨1, _⟩ => rfl | ⟨2, _⟩ => rfl)
  have er : ∀ k : Fin 5, ridx_main_v8 (ix3 n g b) k = ix3 n k b := fun k => funext fun a => Fin.ext (by
    match a with | ⟨0, _⟩ => rfl | ⟨1, _⟩ => rfl | ⟨2, _⟩ => rfl)
  have eb : idx_main_v9 (ix3 n g b) = ix3 n g (0 : Fin 1) := funext fun a => Fin.ext (by
    match a with | ⟨0, _⟩ => rfl | ⟨1, _⟩ => rfl | ⟨2, _⟩ => rfl)
  simp only [el, er, eb]
  rfl

theorem act₁_apply (i : S16384x5x2048.Idx) :
    val_main_v11 (F := Ideal) X W0 B0 W1 B1 i = silu (val_main_v10 (F := Ideal) X W0 B0 W1 B1 i) := by
  rw [val_main_v11_apply, val_main_call1_v5_apply, val_main_call1_v4_apply, val_main_call1_cst_0_apply, val_main_call1_v3_apply,
    val_main_call1_v2_apply, val_main_call1_cst_apply, val_main_call1_v1_apply, val_main_call1_v0_apply]
  exact congrArg (val_main_v10 (F := Ideal) X W0 B0 W1 B1 i * ·) (sigmoid_spelled _)

theorem hidden₁_apply (n : Fin 16384) (g : Fin 5) (b : Fin 2048) :
    val_main_v11 (F := Ideal) X W0 B0 W1 B1 (ix3 n g b)
      = hidden₁ (X (ix2 b (inp n))) (fun h => W0 (ix3 n h 0)) (fun h => B0 (ix3 n h 0)) (fun g h => W1 (ix3 n g h))
          (fun g => B1 (ix3 n g 0)) g := by
  rw [act₁_apply, pre₁_apply]
  simp only [hidden₀_apply]
  rfl

/-! ## The output layer -/

theorem edge_apply (n : Fin 16384) (u : Fin 1) (b : Fin 2048) :
    val_main_v14 (F := Ideal) X W0 B0 W1 B1 W2 B2 (ix3 n u b)
      = edge (X (ix2 b (inp n))) (fun h => W0 (ix3 n h 0)) (fun h => B0 (ix3 n h 0)) (fun g h => W1 (ix3 n g h))
          (fun g => B1 (ix3 n g 0)) (fun g => W2 (ix3 n 0 g)) (B2 (ix3 n 0 0)) := by
  rw [val_main_v14_apply, val_main_v12_apply, val_main_v13_apply]
  have hu : u = 0 := Fin.ext (by omega)
  subst hu
  have el : ∀ k : Fin 5, lidx_main_v12 (ix3 n (0 : Fin 1) b) k = ix3 n (0 : Fin 1) k := fun k => funext fun a => Fin.ext (by
    match a with | ⟨0, _⟩ => rfl | ⟨1, _⟩ => rfl | ⟨2, _⟩ => rfl)
  have er : ∀ k : Fin 5, ridx_main_v12 (ix3 n (0 : Fin 1) b) k = ix3 n k b := fun k => funext fun a => Fin.ext (by
    match a with | ⟨0, _⟩ => rfl | ⟨1, _⟩ => rfl | ⟨2, _⟩ => rfl)
  have eb : idx_main_v13 (ix3 n (0 : Fin 1) b) = ix3 n (0 : Fin 1) (0 : Fin 1) := funext fun a => Fin.ext (by
    match a with | ⟨0, _⟩ => rfl | ⟨1, _⟩ => rfl | ⟨2, _⟩ => rfl)
  simp only [el, er, eb, hidden₁_apply]
  rfl

/-! ## Regrouped by (input, output), summed over the inputs, transposed -/

theorem regrouped_apply (i o : Fin 128) (b : Fin 2048) :
    val_main_v15 (F := Ideal) X W0 B0 W1 B1 W2 B2 (ix3 i o b) = edgeAt X W0 B0 W1 B1 W2 B2 b o i := by
  rw [val_main_v15_apply]
  have e : idx_main_v15 (ix3 i o b) = ix3 (net i o) (0 : Fin 1) b := funext fun a => Fin.ext (by
    have hi := i.isLt; have ho := o.isLt; have hb := b.isLt
    match a with
    | ⟨0, _⟩ => show ((i.val * 128 + o.val) * 2048 + b.val) / 2048 = i.val * 128 + o.val; omega
    | ⟨1, _⟩ => rfl
    | ⟨2, _⟩ => show ((i.val * 128 + o.val) * 2048 + b.val) % 2048 = b.val; omega)
  rw [e, edge_apply, inp_net]
  rfl

/-- THE REFERENCE'S RESULT is the layer. -/
theorem result_eq_layer : val_main_v17 (F := Ideal) X W0 B0 W1 B1 W2 B2 = layer X W0 B0 W1 B1 W2 B2 := by
  funext j
  obtain ⟨r, o, rfl⟩ : ∃ (r : Fin 2048) (o : Fin 128), j = ix2 r o := ⟨j 0, j 1, eq_ix2 j⟩
  rw [val_main_v17_apply, val_main_v16_apply, val_main_cst_apply]
  have e : ∀ k : Fin 128, idx_main_v16 (idx_main_v17 (ix2 r o)) k = ix3 k o r := fun k => funext fun a => Fin.ext (by
    match a with | ⟨0, _⟩ => rfl | ⟨1, _⟩ => rfl | ⟨2, _⟩ => rfl)
  simp only [e, regrouped_apply]
  show Ideal.ofBits .f32 0x00000000#32 + _ = _
  rw [Ideal.ofBits_zero_f32, zero_add]
  rfl

end Cert.ReferenceIdeal.RefValue

end
-- ==== Proof.lean ====
/-
  A layer of 128 × 128 scalar networks, as a Pallas kernel and as jnp. Each edge (input `i`, output `o`) carries a
  perceptron ℝ → ℝ of shape 1 → 5 → 5 → 1 with `silu` after its first two layers, and

      out (r, o) = Σ_{i < 128} edge_{i,o} (x (r, i))        for each of 2048 batch rows r.

  The kernel sweeps a grid (2 batch tiles) × (128 inputs): at a point it evaluates, on the vector unit, the 128 edges of
  one input for 1024 batch rows — the five hidden units unrolled, each running sum started from its bias — and adds the
  `[1024, 128]` result into the output tile, which it zeroed at the tile's first point. The reference repeats the input
  per network, runs the three layers as batched matrix products with a spelled-out sigmoid, regroups by (input, output),
  sums over the inputs and transposes.

  On the extended reals both are `LayerSum.layer` of the seven argument arrays: the kernel's array after the run
  (Proof/KernelValue.lean, over the generated value leg: the run's fold of per-point tile updates, Proof/BodyValue.lean
  for the body's arithmetic at an entry and Proof/Blocks.lean for what the blocks hold), and the reference's result
  (Proof/RefValue.lean, over the generated run read one operation at a time). The only laws used are that `+` and `·`
  are commutative and associative and that the kernel's one-operation sigmoid is by definition the quotient the host
  spells out; they hold at the infinities, so the inputs' finiteness is never used. The ideal pass rewrote nothing, so
  `preserves` is trivial; the frames are the generated ones.
-/
import proofs.«158464_j22789096472783_1_alg».proof.Defs
import proofs.«158464_j22789096472783_1_alg».proof.Proof.Gen.Kernel.Frame
import proofs.«158464_j22789096472783_1_alg».proof.Proof.Gen.KernelIdeal.Value
import proofs.«158464_j22789096472783_1_alg».proof.Proof.Gen.Pre_finite_inputs
import proofs.«158464_j22789096472783_1_alg».proof.Proof.Gen.ReferenceIdeal.Run
import proofs.«158464_j22789096472783_1_alg».proof.Proof.Gen.ReferenceIdeal.Read
import proofs.«158464_j22789096472783_1_alg».proof.Proof.KernelValue
import proofs.«158464_j22789096472783_1_alg».proof.Proof.RefValue
import Idealize.ShloMosaic.Adequacy
import Idealize.ShloMosaic.Init

noncomputable section

namespace Cert.Proof

open Idealize.ShloMosaic Idealize.SL.Sem

/-- The idealized kernel's frame: its value run with the result forgotten. -/
theorem frame_KernelIdeal : frame_KernelIdeal := fun m ρ _ =>
  (θ_run Cert.KernelIdeal.defs _ _).mono (fun _ h c => (h c).2) (Cert.KernelIdeal.Value.run (F := Ideal) m ρ)

/-- The reference's frame: its run with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the seven arguments both programs end with the layer of those arguments in their
    result array: the kernel's run leaves `G7`, which is the layer (KernelValue), and the reference's run leaves its
    composed term, which is the layer too (RefValue). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6⟩ := hagree c
  rw [(h c).1, Cert.ReferenceIdeal.Read.val_main_v17_eq, Cert.ReferenceIdeal.RefValue.result_eq_layer,
    Cert.KernelIdeal.KernelValue.result_eq_layer, a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
